-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x64 : Shape := ⟨2, ![4000, 64]⟩
abbrev S1600000x64 : Shape := ⟨2, ![1600000, 64]⟩
abbrev S1x64 : Shape := ⟨2, ![1, 64]⟩
abbrev S4000x1 : Shape := ⟨2, ![4000, 1]⟩

abbrev nBuf : Space → Nat
  | .hbm => 98
  | .vmem => 38
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S1600000x1, .f32⟩
  | .hbm, ⟨54, _⟩ => ⟨S1600000x64, .f32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S1x64, .f32⟩
  | .hbm, ⟨63, _⟩ => ⟨S1x64, .f32⟩
  | .hbm, ⟨64, _⟩ => ⟨S_, .f32⟩
  | .hbm, ⟨65, _⟩ => ⟨S1x64, .f32⟩
  | .hbm, ⟨66, _⟩ => ⟨S1x64, .f32⟩
  | .hbm, ⟨67, _⟩ => ⟨S_, .f32⟩
  | .hbm, ⟨68, _⟩ => ⟨S1x64, .f32⟩
  | .hbm, ⟨69, _⟩ => ⟨S1x64, .f32⟩
  | .hbm, ⟨70, _⟩ => ⟨S1x64, .f32⟩
  | .hbm, ⟨71, _⟩ => ⟨S1x64, .f32⟩
  | .hbm, ⟨72, _⟩ => ⟨S_, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S1x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x64, .f32⟩
  | .hbm, ⟨89, _⟩ => ⟨S1600000x1, .f32⟩
  | .hbm, ⟨90, _⟩ => ⟨S1600000x64, .f32⟩
  | .hbm, ⟨91, _⟩ => ⟨S1600000x64, .f32⟩
  | .hbm, ⟨92, _⟩ => ⟨S_, .f32⟩
  | .hbm, ⟨93, _⟩ => ⟨S100000x64, .f32⟩
  | .hbm, ⟨94, _⟩ => ⟨S1600000x1, .i32⟩
  | .hbm, ⟨95, _⟩ => ⟨S100000x64, .f32⟩
  | .hbm, ⟨96, _⟩ => ⟨S1x64, .f32⟩
  | .hbm, ⟨97, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S64x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S4000x64, .f32⟩
  | .local _ .vmem, ⟨13, _⟩ => ⟨S4000x64, .f32⟩
  | .local _ .vmem, ⟨14, _⟩ => ⟨S1x64, .f32⟩
  | .local _ .vmem, ⟨15, _⟩ => ⟨S1x64, .f32⟩
  | .local _ .vmem, ⟨16, _⟩ => ⟨S4000x64, .f32⟩
  | .local _ .vmem, ⟨17, _⟩ => ⟨S4000x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S64x64, .f32⟩
  | .local _ .vmem, ⟨27, _⟩ => ⟨S4000x64, .f32⟩
  | .local _ .vmem, ⟨28, _⟩ => ⟨S4000x64, .f32⟩
  | .local _ .vmem, ⟨29, _⟩ => ⟨S4000x64, .f32⟩
  | .local _ .vmem, ⟨30, _⟩ => ⟨S4000x64, .f32⟩
  | .local _ .vmem, ⟨31, _⟩ => ⟨S4000x64, .f32⟩
  | .local _ .vmem, ⟨32, _⟩ => ⟨S4000x64, .f32⟩
  | .local _ .vmem, ⟨33, _⟩ => ⟨S4000x1, .f32⟩
  | .local _ .vmem, ⟨34, _⟩ => ⟨S4000x1, .f32⟩
  | .local _ .vmem, ⟨35, _⟩ => ⟨S1x64, .f32⟩
  | .local _ .vmem, ⟨36, _⟩ => ⟨S4000x64, .f32⟩
  | .local _ .vmem, ⟨37, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43_0 : Ref sig .tc := ⟨.hbm, 61, rfl⟩
abbrev main_v43_1 : Ref sig .tc := ⟨.hbm, 62, rfl⟩
abbrev main_v43_2 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  shapeCasts_S1x64_S1x64 : S1x64.ShapeCasts S1x64
  broadcasts_S1x64_S4000x64 : S1x64.Broadcasts S4000x64
  reduces_S4000x64_S64 : S4000x64.Reduces [0] S64
  bcast_S_S1x64 : S_.BroadcastsInDim S1x64 (![] : Fin 0 → Fin S1x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S4000x64_S64x64_S4000x64_1_0_0_1_n_n_wf : DotDims.WF S4000x64 S64x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x64.size a ≤ S100000x64.size a
  hwx2_5 : ∀ i : grid2.Coords, EltTy.bits .f32 = 32 ∨ (Rect.block (s := S100000x64) S4000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x64.size a ≤ S100000x64.size a
  hwx4_1 : ∀ i : grid4.Coords, EltTy.bits .f32 = 32 ∨ (Rect.block (s := S100000x64) S4000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x1.size a ≤ S100000x1.size a
  hwx4_2 : ∀ i : grid4.Coords, EltTy.bits .f32 = 32 ∨ (Rect.block (s := S100000x1) S4000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x64.size a ≤ S100000x64.size a
  hwx4_4 : ∀ i : grid4.Coords, EltTy.bits .f32 = 32 ∨ (Rect.block (s := S100000x64) S4000x64.size (cc4_transform_4 i) (hinb4_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43_0) S4000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43_1) S1x64.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43_2) S1x64.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43_0) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S4000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S4000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v56) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S4000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S4000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v70) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v71) S4000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 143
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64, .f32⟩
  | 5 => ⟨S64, .f32⟩
  | 6 => ⟨S64x64, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x64, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S1600000x1, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S64, .f32⟩
  | 68 => ⟨S_, .f32⟩
  | 69 => ⟨S64, .f32⟩
  | 70 => ⟨S64, .f32⟩
  | 71 => ⟨S1x64, .f32⟩
  | 72 => ⟨S100000x64, .f32⟩
  | 73 => ⟨S100000x64, .f32⟩
  | 74 => ⟨S100000x64, .f32⟩
  | 75 => ⟨S_, .f32⟩
  | 76 => ⟨S64, .f32⟩
  | 77 => ⟨S_, .f32⟩
  | 78 => ⟨S64, .f32⟩
  | 79 => ⟨S64, .f32⟩
  | 80 => ⟨S1x64, .f32⟩
  | 81 => ⟨S100000x64, .f32⟩
  | 82 => ⟨S100000x64, .f32⟩
  | 83 => ⟨S_, .f32⟩
  | 84 => ⟨S64, .f32⟩
  | 85 => ⟨S64, .f32⟩
  | 86 => ⟨S64, .f32⟩
  | 87 => ⟨S1x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S100000x64, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000, .f32⟩
  | 118 => ⟨S1600000, .f32⟩
  | 119 => ⟨S1600000x1, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x64, .f32⟩

abbrev hbmTy0_1 (i : Nat) : BufTy := match i % 128 with
  | 0 => ⟨S1600000x64, .f32⟩
  | 1 => ⟨S1600000x64, .f32⟩
  | 2 => ⟨S1600000x64, .f32⟩
  | 3 => ⟨S_, .f32⟩
  | 4 => ⟨S100000x64, .f32⟩
  | 5 => ⟨S1600000x1, .i32⟩
  | 6 => ⟨S100000x64, .f32⟩
  | 7 => ⟨S100000, .f32⟩
  | 8 => ⟨S100000x1, .f32⟩
  | 9 => ⟨S100000x64, .f32⟩
  | 10 => ⟨S100000x64, .f32⟩
  | 11 => ⟨S100000x64, .f32⟩
  | 12 => ⟨S1x64, .f32⟩
  | 13 => ⟨S100000x64, .f32⟩
  | 14 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_call0_cst : Ref sig .tc := ⟨.hbm, 96, rfl⟩
abbrev main_call0_v0 : Ref sig .tc := ⟨.hbm, 97, rfl⟩
abbrev main_v73 : Ref sig .tc := ⟨.hbm, 98, rfl⟩
abbrev main_v74 : Ref sig .tc := ⟨.hbm, 99, rfl⟩
abbrev main_c_13 : Ref sig .tc := ⟨.hbm, 100, rfl⟩
abbrev main_v75 : Ref sig .tc := ⟨.hbm, 101, rfl⟩
abbrev main_v76 : Ref sig .tc := ⟨.hbm, 102, rfl⟩
abbrev main_c_14 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_15 : Ref sig .tc := ⟨.hbm, 109, rfl⟩
abbrev main_v82 : Ref sig .tc := ⟨.hbm, 110, rfl⟩
abbrev main_v83 : Ref sig .tc := ⟨.hbm, 111, rfl⟩
abbrev main_c_16 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c_17 : Ref sig .tc := ⟨.hbm, 120, rfl⟩
abbrev main_v91 : Ref sig .tc := ⟨.hbm, 121, rfl⟩
abbrev main_v92 : Ref sig .tc := ⟨.hbm, 122, rfl⟩
abbrev main_c_18 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_19 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The whole-array functions this certificate's programs compute, index by index, on the extended reals.

  Two graph-convolution layers over a table of 100000 nodes by 64 channels. A layer multiplies the table by a
  64 x 64 weight (`mm`), sends every edge's source row, scaled by the edge's coefficient, to the edge's
  destination row (the host's gather and accumulating scatter, kept as the library's operations), and combines:
  aggregate + own row scaled by the node's inverse degree + bias (`comb`). Between the layers the table is
  normalised per channel with the batch's mean and variance and clipped below at zero (`norm`); the statistics
  are the column sums of the table and of its squares (`colSum`, `colSumSq`).
-/
import proofs.«129052_j67044439491163_1_alg».proof.KernelIdeal
import Idealize.ShloMosaic.PureOps.Ideal
import Idealize.ShloMosaic.Lib.ValueIdx

noncomputable section

namespace Cert.Spec

open Idealize.ShloMosaic Idealize.ShloMosaic.ValueIdx
open Cert.KernelIdeal (S100000x64 S64x64 S1x64 S100000x1)

/-- The table times a weight: entry `(i, j)` is the sum over `k` of `X (i, k) · W (k, j)`. -/
def mm (X : FVec Ideal S100000x64 .f32) (W : FVec Ideal S64x64 .f32) : FVec Ideal S100000x64 .f32 :=
  fun i => ∑ k : Fin 64, X (ix2 (i 0) k) * W (ix2 k (i 1))

/-- A layer's combine: the aggregate, plus the node's own row scaled by its column-vector factor, plus the bias row. -/
def comb (hp ag : FVec Ideal S100000x64 .f32) (d2 : FVec Ideal S100000x1 .f32) (b : FVec Ideal S1x64 .f32) :
    FVec Ideal S100000x64 .f32 :=
  fun i => ag i + hp i * d2 (ix2 (i 0) (0 : Fin 1)) + b (ix2 (0 : Fin 1) (i 1))

/-- The column sums of a table, as a row. -/
def colSum (h : FVec Ideal S100000x64 .f32) : FVec Ideal S1x64 .f32 :=
  fun j => ∑ r : Fin 100000, h (ix2 r (j 1))

/-- The column sums of a table's squares, as a row. -/
def colSumSq (h : FVec Ideal S100000x64 .f32) : FVec Ideal S1x64 .f32 :=
  fun j => ∑ r : Fin 100000, h (ix2 r (j 1)) * h (ix2 r (j 1))

/-- Per-channel normalisation, scale and shift, clipped below at zero: `max ((h - mean) · rstd · γ + β) 0`. -/
def norm (h : FVec Ideal S100000x64 .f32) (mean rstd g be : FVec Ideal S1x64 .f32) : FVec Ideal S100000x64 .f32 :=
  fun i => max ((h i - mean (ix2 (0 : Fin 1) (i 1))) * rstd (ix2 (0 : Fin 1) (i 1)) * g (ix2 (0 : Fin 1) (i 1))
    + be (ix2 (0 : Fin 1) (i 1))) (Ideal.ofBits .f32 0x00000000#32)

end Cert.Spec

end
-- ==== Proof.SpecChain.lean ====
/-
  The host-side chains of the two programs as functions, and the whole result.

  From the edge list (a 2 x 1600000 table of node numbers: row 0 the sources, row 1 the destinations) the host
  computes, once, each node's inverse square-root degree `dis` (one plus the number of edges arriving at the
  node, under `rsqrt`), its square as a column `d2`, and each edge's coefficient `coef` (the product of
  `dis` at its two ends). A layer's aggregate `agg` gathers the source rows of a table, scales each by its
  edge's coefficient and adds it into the destination row. These are the library's gather and accumulating
  scatter applied to the printed index arithmetic (a negative node number is taken modulo the table); both
  programs apply them in the same order, so they are stated once here and never opened except to see that
  they keep finite tables finite.

  `kout` is the whole computation: layer 1 (`h`), its per-channel mean and variance from the column sums of
  `h` and of its squares, the normalised and clipped table, layer 2.
-/
import proofs.«129052_j67044439491163_1_alg».proof.Proof.Gen.KernelIdeal
import proofs.«129052_j67044439491163_1_alg».proof.Proof.Spec

noncomputable section

namespace Cert.Spec

open Idealize.ShloMosaic Idealize.ShloMosaic.ValueIdx
open Cert.KernelIdeal Cert.KernelIdeal.Gen

/-- Row 0 of the edge list: the sources. -/
def srcOf (ei : IVec S2x1600000 32) : IVec S1600000 32 :=
  shapeCast _ (extractStridedSlice S1x1600000 ![0, 0] ei slices_S2x1600000_S1x1600000_0_0) shapeCasts_S1x1600000_S1600000

/-- Row 1 of the edge list: the destinations. -/
def dstOf (ei : IVec S2x1600000 32) : IVec S1600000 32 :=
  shapeCast _ (extractStridedSlice S1x1600000 ![1, 0] ei slices_S2x1600000_S1x1600000_1_0) shapeCasts_S1x1600000_S1600000

/-- A node number read modulo the table: a negative one has the table's length added. -/
def wrap (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- A vector of node numbers as a one-column index table. -/
def col (v : IVec S1600000 32) : IVec S1600000x1 32 :=
  broadcastInDim S1600000x1 ![0] bcast_S1600000_S1600000x1_0 v

/-- Each node's inverse square-root degree: `rsqrt (1 + the number of edges arriving)`. -/
def disOf (ei : IVec S2x1600000 32) : FVec Ideal S100000 .f32 :=
  Host.rsqrt (addf (broadcastInDim S100000 ![] bcast_S_S100000 (constant (F := Ideal) S_ .f32 0x3F800000#32))
    (Host.scatterAdd scatter_S100000_S1600000x1_S1600000_n_0_0_1
      (broadcastInDim S100000 ![] bcast_S_S100000 (constant (F := Ideal) S_ .f32 0x00000000#32))
      (col (dstOf ei))
      (broadcastInDim S1600000 ![] bcast_S_S1600000 (constant (F := Ideal) S_ .f32 0x3F800000#32))))

/-- The inverse degree as a column: `dis · dis`, one entry per node. -/
def d2Of (ei : IVec S2x1600000 32) : FVec Ideal S100000x1 .f32 :=
  shapeCast _ (mulf (disOf ei) (disOf ei)) shapeCasts_S100000_S100000x1

/-- Each edge's coefficient: `dis` at its source times `dis` at its destination. -/
def coefOf (ei : IVec S2x1600000 32) : FVec Ideal S1600000 .f32 :=
  mulf (Host.gather gather_S100000_S1600000x1_S1600000_n_0_n_n_0_1_1 (disOf ei) (col (wrap (srcOf ei))))
    (Host.gather gather_S100000_S1600000x1_S1600000_n_0_n_n_0_1_1 (disOf ei) (col (wrap (dstOf ei))))

/-- A layer's aggregate of a table: every edge's source row, times the edge's coefficient, added into its
    destination row. -/
def aggOf (ei : IVec S2x1600000 32) (hp : FVec Ideal S100000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32))
    (col (dstOf ei))
    (mulf (Host.gather gather_S100000x64_S1600000x1_S1600000x64_1_0_n_n_0_1_164 hp (col (wrap (srcOf ei))))
      (broadcastInDim S1600000x64 ![0, 1] bcast_S1600000x1_S1600000x64_0_1
        (broadcastInDim S1600000x1 ![0] bcast_S1600000_S1600000x1_0 (coefOf ei))))

/-- A 64-vector as a one-row table. -/
def rowOf (v : FVec Ideal S64 .f32) : FVec Ideal S1x64 .f32 := shapeCast _ v shapeCasts_S64_S1x64

/-- The row filled with the node count, 100000. -/
def nRow : FVec Ideal S1x64 .f32 := broadcastInDim S1x64 ![] bcast_S_S1x64 (constant (F := Ideal) S_ .f32 0x47C35000#32)

/-- The row filled with the variance's guard, the single-precision 1e-5. -/
def epsRow : FVec Ideal S1x64 .f32 := broadcastInDim S1x64 ![] bcast_S_S1x64 (constant (F := Ideal) S_ .f32 0x3727C5AC#32)

/-- Layer 1 before normalisation. -/
def hOf (x : FVec Ideal S100000x64 .f32) (ei : IVec S2x1600000 32) (W1 : FVec Ideal S64x64 .f32) (b1 : FVec Ideal S64 .f32) :
    FVec Ideal S100000x64 .f32 :=
  comb (mm x W1) (aggOf ei (mm x W1)) (d2Of ei) (rowOf b1)

/-- The per-channel mean of a table: its column sums over the node count. -/
def meanOf (h : FVec Ideal S100000x64 .f32) : FVec Ideal S1x64 .f32 := Host.divf (colSum h) nRow

/-- The per-channel variance as mean of squares minus squared mean. -/
def varOf (h : FVec Ideal S100000x64 .f32) : FVec Ideal S1x64 .f32 :=
  subf (Host.divf (colSumSq h) nRow) (mulf (meanOf h) (meanOf h))

/-- The per-channel inverse standard deviation: `rsqrt (variance + guard)`. -/
def rstdOf (h : FVec Ideal S100000x64 .f32) : FVec Ideal S1x64 .f32 := Host.rsqrt (addf (varOf h) epsRow)

/-- The normalised, scaled, shifted and clipped table between the layers. -/
def actOf (h : FVec Ideal S100000x64 .f32) (g be : FVec Ideal S64 .f32) : FVec Ideal S100000x64 .f32 :=
  norm h (meanOf h) (rstdOf h) (rowOf g) (rowOf be)

/-- The whole computation. -/
def kout (x : FVec Ideal S100000x64 .f32) (ei : IVec S2x1600000 32) (W1 : FVec Ideal S64x64 .f32) (b1 g be : FVec Ideal S64 .f32)
    (W2 : FVec Ideal S64x64 .f32) (b2 : FVec Ideal S64 .f32) : FVec Ideal S100000x64 .f32 :=
  comb (mm (actOf (hOf x ei W1 b1) g be) W2) (aggOf ei (mm (actOf (hOf x ei W1 b1) g be) W2)) (d2Of ei) (rowOf b2)

end Cert.Spec

end
-- ==== Proof.KChainW1.lean ====
/-
  The kernel program's first host stretch read back. Before the first region the host slices the edge list into
  its source and destination rows, counts each node's arriving edges into its degree, takes the inverse square root,
  squares it into a column, and multiplies the two ends' inverse roots into each edge's coefficient. At the first
  boundary those buffers hold the specification's `srcOf`, `dstOf`, `disOf`, `d2Of`, `coefOf` of the edge list,
  and every argument is as launched.
-/
import proofs.«129052_j67044439491163_1_alg».proof.Proof.Gen.KernelIdeal.Frame
import proofs.«129052_j67044439491163_1_alg».proof.Proof.SpecChain
import Idealize.ShloMosaic.Lib.StableHlo.Run
set_option maxRecDepth 16384

noncomputable section

namespace Cert.KernelIdeal.KChainW1

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg)

open Idealize.ShloMosaic.StableHlo

/-- The library's result-rewriting loop, run on a hypothesis: expands `after ops V b` on the hypothesis's side
    exactly as the goal-side loop expands it in a goal, so that the hypothesis then rewrites the expanded goal. -/
macro "after_results_at " h:ident : tactic =>
  `(tactic| (simp only [after_cons, after_nil] at $h:ident
             repeat (first
               | rw [nullary_result] at $h:ident | rw [unary_result] at $h:ident | rw [binary_result] at $h:ident
               | rw [ternary_result] at $h:ident | rw [quaternary_result] at $h:ident | rw [reshape_result] at $h:ident
               | (rw [nullary_result_ne] at $h:ident; rotate_left; decide)
               | (rw [unary_result_ne] at $h:ident; rotate_left; decide)
               | (rw [binary_result_ne] at $h:ident; rotate_left; decide)
               | (rw [ternary_result_ne] at $h:ident; rotate_left; decide)
               | (rw [quaternary_result_ne] at $h:ident; rotate_left; decide)
               | (rw [reshape_result_ne] at $h:ident; rotate_left; decide))))

/-- The argument arrays as launched, on core `c`. -/
abbrev a0 (c : Dev nD) : FVec Ideal S100000x64 .f32 := m ((c : Thread nD τ).loc main_arg0)
abbrev a1 (c : Dev nD) : IVec S2x1600000 32 := m ((c : Thread nD τ).loc main_arg1)
abbrev a2 (c : Dev nD) : FVec Ideal S64x64 .f32 := m ((c : Thread nD τ).loc main_arg2)
abbrev a3 (c : Dev nD) : FVec Ideal S64 .f32 := m ((c : Thread nD τ).loc main_arg3)
abbrev a4 (c : Dev nD) : FVec Ideal S64 .f32 := m ((c : Thread nD τ).loc main_arg4)
abbrev a5 (c : Dev nD) : FVec Ideal S64 .f32 := m ((c : Thread nD τ).loc main_arg5)
abbrev a6 (c : Dev nD) : FVec Ideal S64x64 .f32 := m ((c : Thread nD τ).loc main_arg6)
abbrev a7 (c : Dev nD) : FVec Ideal S64 .f32 := m ((c : Thread nD τ).loc main_arg7)

theorem W1_arg0 (c : Dev nD) : W1 m ρ c (Proc.devRef .tc main_arg0) = a0 m c := by
  show StableHlo.after hostOps0 (W0 m ρ c) (Proc.devRef .tc main_arg0) = _
  after_results
theorem W1_arg1 (c : Dev nD) : W1 m ρ c (Proc.devRef .tc main_arg1) = a1 m c := by
  show StableHlo.after hostOps0 (W0 m ρ c) (Proc.devRef .tc main_arg1) = _
  after_results
theorem W1_arg2 (c : Dev nD) : W1 m ρ c (Proc.devRef .tc main_arg2) = a2 m c := by
  show StableHlo.after hostOps0 (W0 m ρ c) (Proc.devRef .tc main_arg2) = _
  after_results
theorem W1_arg3 (c : Dev nD) : W1 m ρ c (Proc.devRef .tc main_arg3) = a3 m c := by
  show StableHlo.after hostOps0 (W0 m ρ c) (Proc.devRef .tc main_arg3) = _
  after_results
theorem W1_arg4 (c : Dev nD) : W1 m ρ c (Proc.devRef .tc main_arg4) = a4 m c := by
  show StableHlo.after hostOps0 (W0 m ρ c) (Proc.devRef .tc main_arg4) = _
  after_results
theorem W1_arg5 (c : Dev nD) : W1 m ρ c (Proc.devRef .tc main_arg5) = a5 m c := by
  show StableHlo.after hostOps0 (W0 m ρ c) (Proc.devRef .tc main_arg5) = _
  after_results
theorem W1_arg6 (c : Dev nD) : W1 m ρ c (Proc.devRef .tc main_arg6) = a6 m c := by
  show StableHlo.after hostOps0 (W0 m ρ c) (Proc.devRef .tc main_arg6) = _
  after_results
theorem W1_arg7 (c : Dev nD) : W1 m ρ c (Proc.devRef .tc main_arg7) = a7 m c := by
  show StableHlo.after hostOps0 (W0 m ρ c) (Proc.devRef .tc main_arg7) = _
  after_results

/-- The sources: row 0 of the edge list. -/
theorem W1_v1 (c : Dev nD) : W1 m ρ c (Proc.devRef .tc main_v1) = srcOf (a1 m c) := by
  show StableHlo.after hostOps0 (W0 m ρ c) (Proc.devRef .tc main_v1) = _
  after_results
  rfl

/-- The destinations: row 1 of the edge list. -/
theorem W1_v3 (c : Dev nD) : W1 m ρ c (Proc.devRef .tc main_v3) = dstOf (a1 m c) := by
  show StableHlo.after hostOps0 (W0 m ρ c) (Proc.devRef .tc main_v3) = _
  after_results
  rfl

/-- The inverse square-root degrees: the destination rows, already read, are met again inside the count. -/
theorem W1_v10 (c : Dev nD) : W1 m ρ c (Proc.devRef .tc main_v10) = disOf (a1 m c) := by
  have n3 := W1_v3 m ρ c
  change StableHlo.after hostOps0 (W0 m ρ c) (Proc.devRef .tc main_v3) = _ at n3
  after_results_at n3
  show StableHlo.after hostOps0 (W0 m ρ c) (Proc.devRef .tc main_v10) = _
  after_results
  rw [n3]
  rfl

set_option maxHeartbeats 4000000 in
/-- The inverse degree as a column. -/
theorem W1_v12 (c : Dev nD) : W1 m ρ c (Proc.devRef .tc main_v12) = d2Of (a1 m c) := by
  have n10 := W1_v10 m ρ c
  change StableHlo.after hostOps0 (W0 m ρ c) (Proc.devRef .tc main_v10) = _ at n10
  after_results_at n10
  show StableHlo.after hostOps0 (W0 m ρ c) (Proc.devRef .tc main_v12) = _
  after_results
  rw [n10]
  rfl

set_option maxHeartbeats 8000000 in
/-- The edge coefficients: the inverse root degrees gathered at the two (wrapped) ends, multiplied. -/
theorem W1_v27 (c : Dev nD) : W1 m ρ c (Proc.devRef .tc main_v27) = coefOf (a1 m c) := by
  have n1 := W1_v1 m ρ c
  change StableHlo.after hostOps0 (W0 m ρ c) (Proc.devRef .tc main_v1) = _ at n1
  after_results_at n1
  have n3 := W1_v3 m ρ c
  change StableHlo.after hostOps0 (W0 m ρ c) (Proc.devRef .tc main_v3) = _ at n3
  after_results_at n3
  have n10 := W1_v10 m ρ c
  change StableHlo.after hostOps0 (W0 m ρ c) (Proc.devRef .tc main_v10) = _ at n10
  after_results_at n10
  show StableHlo.after hostOps0 (W0 m ρ c) (Proc.devRef .tc main_v27) = _
  after_results
  rw [n10, n1, n3]
  rfl

end Cert.KernelIdeal.KChainW1

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.Reg0.lean ====
/-
  The first weight product, block by block: grid point `t` multiplies rows 4000·t … 4000·t+3999 of the table by the
  whole 64 x 64 weight (the conversions to the narrower float format on the way in are the identity on the ideal
  values) and writes them back as the same rows of the result; the 25 blocks fill the result, which is therefore
  the whole product `mm`.
-/
import proofs.«129052_j67044439491163_1_alg».proof.Proof.Gen.KernelIdeal.Frame
import proofs.«129052_j67044439491163_1_alg».proof.Proof.Spec
import proofs.«129052_j67044439491163_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered (any: the run instantiates it)
variable (V : (c : Dev nD) → (b : Ref sig .tc) → Buf (Elt Ideal) ((c : Thread nD τ).loc b))

/-- The zero offsets of a whole-buffer access, as the constant function. -/
theorem origin_zero : (![0, 0] : Fin 2 → Nat) = fun _ => 0 :=
  funext fun a => by match a with | ⟨0, _⟩ => rfl | ⟨1, _⟩ => rfl

/-- The block indices over the grid: at point `t` the table's window and the result's window sit at block row `t`,
    block column 0; the weight's window is the whole 64 x 64 array, at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's payload at entry `(p, q)`: the sum over `k` of `x0 (p, k) · x1 (k, q)` — a plain 4000 x 64 by 64 x 64
    product into the zero accumulator, the conversions to the narrower format being the identity on the ideal values. -/
theorem product_apply (x0 : Vec Ideal S4000x64 .f32) (x1 : Vec Ideal S64x64 .f32) (p : Fin 4000) (q : Fin 64) :
    k0_pay1 x0 x1 (ix2 p q) = ∑ k : Fin 64, x0 (ix2 p k) * x1 (ix2 k q) := by
  unfold k0_pay1
  show matmul (F := Ideal) (DotDims.plain 4000 64 64) none
    (truncf (F := Ideal) .bf16 (x0 : FVec Ideal ⟨2, ![4000, 64]⟩ .f32) bitsLt_bf16_f32)
    (truncf (F := Ideal) .bf16 (x1 : FVec Ideal ⟨2, ![64, 64]⟩ .f32) bitsLt_bf16_f32)
    (constant (F := Ideal) ⟨2, ![4000, 64]⟩ .f32 0x00000000#32) (ix2 p q) = _
  rw [PlainDot.matmul_zero_apply]
  rfl

/-- What point `t` writes back is block `t` of the whole product: entry `(p, q)` of the block is the sum over `k` of
    the table's block at `(p, k)` times the weight at `(k, q)`; the table's block row `p` is the table's row
    `4000 · t + p`, which is the row of the result the entry is written to, and the weight is read whole. -/
theorem flushed_eq (c : Dev nD) (t : Fin cfg0.N) :
    (dat0 V c).flushed 2 t = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero origin_zero]
  simp only [View.ld_unit_zero (S := S4000x64) origin_zero, View.ld_unit_zero (S := S64x64) origin_zero]
  funext j
  obtain ⟨p, q, rfl⟩ : ∃ (p : Fin 4000) (q : Fin 64), j = ix2 p q := ⟨j 0, j 1, eq_ix2 j⟩
  show k0_pay1 (iblk0 V c 0 t) (iblk0 V c 1 t) (ix2 p q)
    = Cert.Spec.mm (V c main_arg0) (V c main_arg2) (((cfg0.win 2).blk t).view.emb (ix2 p q))
  refine (product_apply (iblk0 V c 0 t) (iblk0 V c 1 t) p q).trans ?_
  unfold Cert.Spec.mm
  refine Finset.sum_congr rfl fun k _ => ?_
  obtain ⟨e00, e01, e10, e11, e20, e21⟩ := block_indices t
  -- the table's block at (p, k) is the table at (the result's row, k)
  have hX : iblk0 V c 0 t (ix2 p k) = V c main_arg0 (ix2 (((cfg0.win 2).blk t).view.emb (ix2 p q) 0) k) := by
    show V c main_arg0 (((cfg0.win 0).blk t).view.emb (ix2 p k)) = _
    refine congrArg (V c main_arg0) (funext fun a => Fin.ext ?_)
    match a with
    | ⟨0, _⟩ => show win0_0.index t (0 : Fin 2) * 4000 + 1 * p.val = win0_2.index t (0 : Fin 2) * 4000 + 1 * p.val; omega
    | ⟨1, _⟩ => show win0_0.index t (1 : Fin 2) * 64 + 1 * k.val = k.val; omega
  -- the weight's block at (k, q) is the weight at (k, the result's column)
  have hW : iblk0 V c 1 t (ix2 k q) = V c main_arg2 (ix2 k (((cfg0.win 2).blk t).view.emb (ix2 p q) 1)) := by
    show V c main_arg2 (((cfg0.win 1).blk t).view.emb (ix2 k q)) = _
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  rw [hX, hW]

/-- An index of the result is in point `t`'s block iff each coordinate is in the block's range on its axis. -/
theorem mem_block (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v28).slice (win0_2.rect t)).set ↔ _
  rw [View.set_slice_whole, Rect.mem_set_unit]
  exact Iff.rfl

/-- The 25 blocks fill the result: row `r` is in the block of point `r / 4000`, and every column is in every block. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 25 := N_0
  let t : Fin cfg0.N := ⟨(i 0).val / 4000, by show (i 0).val / 4000 < grid0.N; omega⟩
  obtain ⟨e00, e01, e10, e11, e20, e21⟩ := block_indices t
  have ht : t.val = (i 0).val / 4000 := rfl
  refine ⟨t, flush0_2 t, ?_⟩
  rw [mem_block]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- The array region 0 leaves: the table times the weight. -/
theorem final0 (c : Dev nD) : (dat0 V c).arrAt 2 cfg0.N = Cert.Spec.mm (V c main_arg0) (V c main_arg2) :=
  (dat0 V c).arrAt_eq_of_cover 2 (Cert.Spec.mm (V c main_arg0) (V c main_arg2)) (fun t _ => flushed_eq V c t) cover

end Cert.KernelIdeal.Reg0

end
-- ==== Proof.Reg1Pieces.lean ====
/-
  What each case of the combine-and-statistics body leaves in its three output buffers, as the body's arithmetic
  of the blocks it loaded.

  The body runs in one of two cases. At the first grid point it clears the two running rows (column sums, column
  sums of squares) before it adds the block's sums to them; at every later point it adds to what the point before
  left. In both cases the table block it stores is the combine of the loaded blocks. Each buffer is written whole
  by its last store, so reading the stores back gives that store's value.
-/
import proofs.«129052_j67044439491163_1_alg».proof.Proof.Gen.KernelIdeal.Frame
import Idealize.ShloMosaic.Lib.Pipeline.Value

set_option maxRecDepth 16384

noncomputable section

namespace Cert.KernelIdeal.Reg1Pieces

open Idealize.ShloMosaic Idealize.ShloMosaic.TcCoe Idealize.ShloMosaic.Tactic Idealize.SL.Sem
open Cert.KernelIdeal Cert.KernelIdeal.Gen

variable {F : FTy → Type} [FloatOps F]
variable (c : Dev nD) (i : grid1.Coords)
  (arg1 : Memref sig .tc .vmem S4000x64 .f32) (harg1 : arg1.IsWhole) (arg2 : Memref sig .tc .vmem S4000x64 .f32) (harg2 : arg2.IsWhole)
  (arg3 : Memref sig .tc .vmem S4000x1 .f32) (harg3 : arg3.IsWhole) (arg4 : Memref sig .tc .vmem S1x64 .f32) (harg4 : arg4.IsWhole)
  (arg5 : Memref sig .tc .vmem S4000x64 .f32) (harg5 : arg5.IsWhole) (arg6 : Memref sig .tc .vmem S1x64 .f32) (harg6 : arg6.IsWhole)
  (arg7 : Memref sig .tc .vmem S1x64 .f32) (harg7 : arg7.IsWhole)
  (x0 x1 : Vec F S4000x64 .f32) (x2 : Vec F S4000x1 .f32) (x3 : Vec F S1x64 .f32)

/-- The origin of a block of rank two is the zero offset. -/
theorem hz : (![0, 0] : Fin 2 → Nat) = fun _ => 0 := funext fun a => by fin_cases a <;> rfl

/-- First point: the stored table block is the combine of the loaded blocks (`x0` the own rows, `x1` the aggregate,
    `x2` the column factor, `x3` the bias row). -/
theorem pieceA4 (hc0 : cond1_0 i) :
    out1_A_4 (F := F) c i arg1 harg1 arg2 harg2 arg3 harg3 arg4 harg4 arg5 harg5 arg6 harg6 arg7 harg7 hc0 x0 x1 x2 x3 = k1_pay3 x1 x0 x2 x3 := by
  unfold out1_A_4
  rw [View.read_writes_eq_canon _ _ _ (cover1_A_4 c i arg1 harg1 arg2 harg2 arg3 harg3 arg4 harg4 arg5 harg5 arg6 harg6 arg7 harg7 hc0 x0 x1 x2 x3)]
  unfold kernelRun1_A
  dsimp only
  sl_unfold_words
  rw [View.canon_unit_zero hz]
  simp only [View.readAt_eq_ld, harg1.read_unread, harg2.read_unread, harg3.read_unread, harg4.read_unread,
    View.ld_unit_zero (S := S4000x64) hz, View.ld_unit_zero (S := S4000x1) hz, View.ld_unit_zero (S := S1x64) hz]

/-- First point: the running column sums end at the cleared row plus the block's column sums. -/
theorem pieceA5 (hc0 : cond1_0 i) :
    out1_A_5 (F := F) c i arg1 harg1 arg2 harg2 arg3 harg3 arg4 harg4 arg5 harg5 arg6 harg6 arg7 harg7 hc0 x0 x1 x2 x3 = k1_pay4 x1 x0 x2 x3 k1_pay1 := by
  unfold out1_A_5
  rw [View.read_writes_eq_canon _ _ _ (cover1_A_5 c i arg1 harg1 arg2 harg2 arg3 harg3 arg4 harg4 arg5 harg5 arg6 harg6 arg7 harg7 hc0 x0 x1 x2 x3)]
  unfold kernelRun1_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread,
    View.ld_unit_zero (S := S4000x64) hz, View.ld_unit_zero (S := S4000x1) hz, View.ld_unit_zero (S := S1x64) hz]

/-- First point: the running column sums of squares end at the cleared row plus the block's. -/
theorem pieceA6 (hc0 : cond1_0 i) :
    out1_A_6 (F := F) c i arg1 harg1 arg2 harg2 arg3 harg3 arg4 harg4 arg5 harg5 arg6 harg6 arg7 harg7 hc0 x0 x1 x2 x3 = k1_pay5 x1 x0 x2 x3 k1_pay2 := by
  unfold out1_A_6
  rw [View.read_writes_eq_canon _ _ _ (cover1_A_6 c i arg1 harg1 arg2 harg2 arg3 harg3 arg4 harg4 arg5 harg5 arg6 harg6 arg7 harg7 hc0 x0 x1 x2 x3)]
  unfold kernelRun1_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread,
    View.ld_unit_zero (S := S4000x64) hz, View.ld_unit_zero (S := S4000x1) hz, View.ld_unit_zero (S := S1x64) hz]

/-- A later point: the stored table block is again the combine of the loaded blocks. -/
theorem pieceB4 (hc0 : ¬cond1_0 i) (xo5 xo6 : Vec F S1x64 .f32) :
    out1_B_4 (F := F) c i arg1 harg1 arg2 harg2 arg3 harg3 arg4 harg4 arg5 harg5 arg6 harg6 arg7 harg7 hc0 x0 x1 x2 x3 xo5 xo6 = k1_pay3 x1 x0 x2 x3 := by
  unfold out1_B_4
  rw [View.read_writes_eq_canon _ _ _ (cover1_B_4 c i arg1 harg1 arg2 harg2 arg3 harg3 arg4 harg4 arg5 harg5 arg6 harg6 arg7 harg7 hc0 x0 x1 x2 x3 xo5 xo6)]
  unfold kernelRun1_B
  dsimp only
  sl_unfold_words
  rw [View.canon_unit_zero hz]
  simp only [View.readAt_eq_ld, harg1.read_unread, harg2.read_unread, harg3.read_unread, harg4.read_unread,
    View.ld_unit_zero (S := S4000x64) hz, View.ld_unit_zero (S := S4000x1) hz, View.ld_unit_zero (S := S1x64) hz]

/-- A later point: the running column sums end at what the point before left (`xo5`) plus the block's column sums. -/
theorem pieceB5 (hc0 : ¬cond1_0 i) (xo5 xo6 : Vec F S1x64 .f32) :
    out1_B_5 (F := F) c i arg1 harg1 arg2 harg2 arg3 harg3 arg4 harg4 arg5 harg5 arg6 harg6 arg7 harg7 hc0 x0 x1 x2 x3 xo5 xo6 = k1_pay4 x1 x0 x2 x3 xo5 := by
  unfold out1_B_5
  rw [View.read_writes_eq_canon _ _ _ (cover1_B_5 c i arg1 harg1 arg2 harg2 arg3 harg3 arg4 harg4 arg5 harg5 arg6 harg6 arg7 harg7 hc0 x0 x1 x2 x3 xo5 xo6)]
  unfold kernelRun1_B
  dsimp only
  sl_unfold_words
  rw [View.canon_unit_zero hz]
  simp only [View.readAt_eq_ld, harg1.read_unread, harg2.read_unread, harg3.read_unread, harg4.read_unread,
    harg6.read_unread, harg7.read_unread,
    View.ld_unit_zero (S := S4000x64) hz, View.ld_unit_zero (S := S4000x1) hz, View.ld_unit_zero (S := S1x64) hz]

/-- A later point: the running column sums of squares end at what the point before left (`xo6`) plus the block's. -/
theorem pieceB6 (hc0 : ¬cond1_0 i) (xo5 xo6 : Vec F S1x64 .f32) :
    out1_B_6 (F := F) c i arg1 harg1 arg2 harg2 arg3 harg3 arg4 harg4 arg5 harg5 arg6 harg6 arg7 harg7 hc0 x0 x1 x2 x3 xo5 xo6 = k1_pay5 x1 x0 x2 x3 xo6 := by
  unfold out1_B_6
  rw [View.read_writes_eq_canon _ _ _ (cover1_B_6 c i arg1 harg1 arg2 harg2 arg3 harg3 arg4 harg4 arg5 harg5 arg6 harg6 arg7 harg7 hc0 x0 x1 x2 x3 xo5 xo6)]
  unfold kernelRun1_B
  dsimp only
  sl_unfold_words
  rw [View.canon_unit_zero hz]
  simp only [View.readAt_eq_ld, harg1.read_unread, harg2.read_unread, harg3.read_unread, harg4.read_unread,
    harg6.read_unread, harg7.read_unread,
    View.ld_unit_zero (S := S4000x64) hz, View.ld_unit_zero (S := S4000x1) hz, View.ld_unit_zero (S := S1x64) hz]

end Cert.KernelIdeal.Reg1Pieces

end
-- ==== Proof.Math.lean ====
/-
  Extended-real facts the certificate's algebra rests on: which values are real numbers and which operations keep
  them so; the three float words the statistics use, as reals; a sum over 100000 rows as 25 blocks of 4000; a running
  accumulation as a finite sum; and the variance of real data as mean of squares minus squared mean.
-/
import Idealize.ShloMosaic.PureOps.Ideal

noncomputable section

namespace Cert.Math

open Idealize.ShloMosaic

/-- An extended real that is a real number (neither infinity). -/
def IsReal (x : EReal) : Prop := ∃ r : ℝ, x = (r : EReal)

theorem IsReal.coe (r : ℝ) : IsReal (r : EReal) := ⟨r, rfl⟩
theorem IsReal.zero : IsReal (0 : EReal) := ⟨0, EReal.coe_zero.symm⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
theorem IsReal.sum {ι : Type*} (s : Finset ι) (f : ι → EReal) (hf : ∀ i ∈ s, IsReal (f i)) : IsReal (∑ i ∈ s, f i) := by
  classical
  induction s using Finset.induction_on with
  | empty => rw [Finset.sum_empty]; exact IsReal.zero
  | insert a s ha ih =>
    rw [Finset.sum_insert ha]
    exact IsReal.add (hf a (Finset.mem_insert_self a s)) (ih (fun i hi => hf i (Finset.mem_insert_of_mem hi)))
/-- The inverse square root of a positive real is a real. -/
theorem IsReal.rsqrt_of_pos {r : ℝ} (hr : 0 < r) : IsReal (Ideal.rsqrt (r : EReal)) := by
  rw [Ideal.rsqrt_coe, if_neg (not_lt.mpr hr.le), if_neg hr.ne']
  exact ⟨_, rfl⟩

/-- The float words the programs use, at the ideal values. -/
theorem ofBits_zero : Ideal.ofBits .f32 0x00000000#32 = (0 : EReal) := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_n : Ideal.ofBits .f32 0x47C35000#32 = ((100000 : ℝ) : EReal) := by
  simp [Ideal.ofBits, Ideal.ieee, -EReal.coe_mul]; norm_num

/-- A sum over 100000 rows, taken as 25 blocks of 4000 consecutive rows. -/
theorem sum_blocks {M : Type*} [AddCommMonoid M] (f : Fin 100000 → M) :
    ∑ t : Fin 25, ∑ r : Fin 4000, f ⟨4000 * t.val + r.val, by omega⟩ = ∑ i : Fin 100000, f i := by
  rw [← Fintype.sum_prod_type']
  refine Fintype.sum_equiv (finProdFinEquiv : Fin 25 × Fin 4000 ≃ Fin (25 * 4000)) _ _ (fun x => ?_)
  congr 1
  ext
  simp [finProdFinEquiv, Nat.add_comm]

/-- A running accumulation started at `0 + s 0` is the sum of the terms so far. -/
theorem acc_eq_sum (s acc : ℕ → EReal) (h0 : acc 0 = 0 + s 0) (hs : ∀ n, acc (n + 1) = acc n + s (n + 1)) (n : ℕ) :
    acc n = ∑ t ∈ Finset.range (n + 1), s t := by
  induction n with
  | zero => rw [h0, zero_add, Finset.sum_range_one]
  | succ k ih => rw [hs k, ih, Finset.sum_range_succ _ (k + 1)]

/-- The coercion from the reals carries a finite sum to the finite sum. -/
theorem coe_sum {ι : Type*} (s : Finset ι) (g : ι → ℝ) : ∑ i ∈ s, ((g i : ℝ) : EReal) = ((∑ i ∈ s, g i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- For real data over 100000 rows: the mean of the squared deviations from the mean is the mean of the squares
    minus the squared mean (division and subtraction the ideal instance's). -/
theorem var_identity (h : Fin 100000 → EReal) (hr : ∀ i, IsReal (h i)) :
    Ideal.div (∑ i, (h i - Ideal.div (∑ i, h i) ((100000 : ℝ) : EReal)) * (h i - Ideal.div (∑ i, h i) ((100000 : ℝ) : EReal))) ((100000 : ℝ) : EReal)
      = Ideal.div (∑ i, h i * h i) ((100000 : ℝ) : EReal)
        - Ideal.div (∑ i, h i) ((100000 : ℝ) : EReal) * Ideal.div (∑ i, h i) ((100000 : ℝ) : EReal) := by
  choose g hg using hr
  have hh : h = fun i => ((g i : ℝ) : EReal) := funext hg
  subst hh
  have hN : (100000 : ℝ) ≠ 0 := by norm_num
  simp only [Ideal.div_coe hN]
  -- the mean, a real
  rw [coe_sum Finset.univ g, ← EReal.coe_mul]
  simp only [← EReal.coe_sub, ← EReal.coe_mul]
  rw [coe_sum Finset.univ (fun i => (g i - (∑ i, g i) * (1 / 100000)) * (g i - (∑ i, g i) * (1 / 100000))),
    coe_sum Finset.univ (fun i => g i * g i), ← EReal.coe_mul, ← EReal.coe_mul, ← EReal.coe_sub]
  congr 1
  -- now an identity of reals
  have hexp : ∀ μ : ℝ, ∑ i, (g i - μ) * (g i - μ) = ∑ i, g i * g i - 2 * μ * ∑ i, g i + 100000 * (μ * μ) := by
    intro μ
    have e : ∀ i, (g i - μ) * (g i - μ) = g i * g i - 2 * μ * g i + μ * μ := fun i => by ring
    simp only [e, Finset.sum_add_distrib, Finset.sum_sub_distrib, ← Finset.mul_sum, Finset.sum_const,
      Finset.card_univ, Fintype.card_fin, nsmul_eq_mul]
    push_cast
    ring
  rw [hexp]
  ring

end Cert.Math

end
-- ==== Proof.Reg1.lean ====
/-
  The first combine with its statistics. Grid point `t` writes rows 4000·t … 4000·t+3999 of the combined table
  (as the last combine does), and carries two running rows from point to point: the column sums of the blocks so
  far and the column sums of their squares, cleared at the first point. After the last point the running rows are
  the column sums over all 100000 rows (25 blocks of 4000), and they are written back once, then.
-/
import proofs.«129052_j67044439491163_1_alg».proof.Proof.Gen.KernelIdeal.Frame
import proofs.«129052_j67044439491163_1_alg».proof.Proof.Spec
import proofs.«129052_j67044439491163_1_alg».proof.Proof.Reg1Pieces
import proofs.«129052_j67044439491163_1_alg».proof.Proof.Math
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

namespace Cert.KernelIdeal.Reg1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's arithmetic, entry by entry -/

theorem hz : (![0, 0] : Fin 2 → Nat) = fun _ => 0 := funext fun a => by fin_cases a <;> rfl

/-- A column `[a, 1]` spread over `b` columns reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The combine at row `p`, channel `q` of a block: the aggregate's entry, plus the own row's entry scaled by the row's
    factor, plus the bias of the channel. -/
theorem comb_blk (xa xo : Vec Ideal S4000x64 .f32) (xd : Vec Ideal S4000x1 .f32) (xb : Vec Ideal S1x64 .f32)
    (p : Fin 4000) (q : Fin 64) :
    k1_pay3 xa xo xd xb (ix2 p q)
      = xa (ix2 p q) + xo (ix2 p q) * xd (ix2 p (0 : Fin 1)) + xb (ix2 (0 : Fin 1) q) := by
  unfold k1_pay3
  simp only [shapeCast_self]
  rw [addf_apply, addf_apply, mulf_apply, broadcastTo_a1_ab_apply, broadcastTo_1b_ab_apply]

/-- A lane sum over the rows of a block, as a row: at channel `q` it is the sum over the block's 4000 rows. -/
theorem rowsum_blk (x : FVec Ideal S4000x64 .f32) (q : Fin 64) :
    shapeCast S1x64 (multiReduction (F := Ideal) .add [0] S64 x 0x00000000#32 reduces_S4000x64_S64 (.inl rfl) rfl) shapeCasts_S64_S1x64
        (ix2 (0 : Fin 1) q)
      = ∑ p : Fin 4000, x (ix2 p q) := by
  refine (shapeCast_a_1a_apply _ _ (0 : Fin 1) q).trans ?_
  refine (Ideal.multiReduction_add_single x 0x00000000#32 reduces_S4000x64_S64 (.inl rfl) rfl (ix1 q)).trans ?_
  show ∑ p : Fin 4000, x (reduces_S4000x64_S64.lift (ix1 q) p) = _
  refine Finset.sum_congr rfl fun p _ => congrArg x ?_
  funext a
  match a with
  | ⟨0, _⟩ => rfl
  | ⟨1, _⟩ => rfl

/-- The running column sums after a block: what was there, plus the block's column sums of the combine. -/
theorem sums_blk (xa xo : Vec Ideal S4000x64 .f32) (xd : Vec Ideal S4000x1 .f32) (xb : Vec Ideal S1x64 .f32)
    (acc : Vec Ideal S1x64 .f32) (q : Fin 64) :
    k1_pay4 xa xo xd xb acc (ix2 (0 : Fin 1) q)
      = acc (ix2 (0 : Fin 1) q) + ∑ p : Fin 4000, k1_pay3 xa xo xd xb (ix2 p q) := by
  unfold k1_pay4
  simp only [shapeCast_self]
  refine (addf_apply _ _ _).trans ?_
  exact congrArg (acc (ix2 (0 : Fin 1) q) + ·) (rowsum_blk (k1_pay3 xa xo xd xb) q)

/-- The running column sums of squares after a block: what was there, plus the block's column sums of the squared combine. -/
theorem sqsums_blk (xa xo : Vec Ideal S4000x64 .f32) (xd : Vec Ideal S4000x1 .f32) (xb : Vec Ideal S1x64 .f32)
    (acc : Vec Ideal S1x64 .f32) (q : Fin 64) :
    k1_pay5 xa xo xd xb acc (ix2 (0 : Fin 1) q)
      = acc (ix2 (0 : Fin 1) q) + ∑ p : Fin 4000, k1_pay3 xa xo xd xb (ix2 p q) * k1_pay3 xa xo xd xb (ix2 p q) := by
  unfold k1_pay5
  simp only [shapeCast_self]
  refine (addf_apply _ _ _).trans ?_
  exact congrArg (acc (ix2 (0 : Fin 1) q) + ·) (rowsum_blk (mulf (k1_pay3 xa xo xd xb) (k1_pay3 xa xo xd xb)) q)

/-- The cleared rows are zero. -/
theorem clear5 (q : Fin 64) : (k1_pay1 (F := Ideal)) (ix2 (0 : Fin 1) q) = 0 := Cert.Math.ofBits_zero
theorem clear6 (q : Fin 64) : (k1_pay2 (F := Ideal)) (ix2 (0 : Fin 1) q) = 0 := Cert.Math.ofBits_zero

/-! ## The blocks the body loads, as rows of the region's input arrays -/

-- the TensorCore's buffer contents when the region is entered (any: the run instantiates it)
variable (V : (c : Dev nD) → (b : Ref sig .tc) → Buf (Elt Ideal) ((c : Thread nD τ).loc b))

/-- The combined table, as one function of the region's four input arrays. -/
abbrev tbl (c : Dev nD) : FVec Ideal S100000x64 .f32 :=
  Cert.Spec.comb (V c main_v28) (V c main_v41) (V c main_v12) (V c main_v42)

theorem lt25 (t : Fin cfg1.N) : t.val < 25 := lt_of_lt_of_eq t.isLt (show cfg1.N = 25 from N_1)

/-- Row `p` of the block of grid point `t` is row `4000·t + p` of the table. -/
def rowOf (t : ℕ) (ht : t < 25) (p : Fin 4000) : Fin 100000 := ⟨4000 * t + p.val, by have := p.isLt; omega⟩

/-- The index maps, over the grid: the row-tiled windows sit at block `(t, 0)`, the whole-array ones at `(0, 0)`. -/
theorem idx_own : ∀ t : Fin cfg1.N, win1_0.index t (0 : Fin 2) = t.val ∧ win1_0.index t (1 : Fin 2) = 0 :=
  (by decide +kernel : ∀ t : Fin grid1.N, _)
theorem idx_agg : ∀ t : Fin cfg1.N, win1_1.index t (0 : Fin 2) = t.val ∧ win1_1.index t (1 : Fin 2) = 0 :=
  (by decide +kernel : ∀ t : Fin grid1.N, _)
theorem idx_fac : ∀ t : Fin cfg1.N, win1_2.index t (0 : Fin 2) = t.val ∧ win1_2.index t (1 : Fin 2) = 0 :=
  (by decide +kernel : ∀ t : Fin grid1.N, _)
theorem idx_bias : ∀ t : Fin cfg1.N, win1_3.index t (0 : Fin 2) = 0 ∧ win1_3.index t (1 : Fin 2) = 0 :=
  (by decide +kernel : ∀ t : Fin grid1.N, _)
theorem idx_tbl : ∀ t : Fin cfg1.N, win1_4.index t (0 : Fin 2) = t.val ∧ win1_4.index t (1 : Fin 2) = 0 :=
  (by decide +kernel : ∀ t : Fin grid1.N, _)
theorem idx_sum : ∀ t : Fin cfg1.N, win1_5.index t (0 : Fin 2) = 0 ∧ win1_5.index t (1 : Fin 2) = 0 :=
  (by decide +kernel : ∀ t : Fin grid1.N, _)
theorem idx_sq : ∀ t : Fin cfg1.N, win1_6.index t (0 : Fin 2) = 0 ∧ win1_6.index t (1 : Fin 2) = 0 :=
  (by decide +kernel : ∀ t : Fin grid1.N, _)

theorem own_blk (c : Dev nD) (t : Fin cfg1.N) (p : Fin 4000) (q : Fin 64) :
    (iblk1 V c 0 t : Vec Ideal S4000x64 .f32) (ix2 p q) = V c main_v28 (ix2 (rowOf t.val (lt25 t) p) q) := by
  show V c main_v28 (((cfg1.win 0).blk t).view.emb (ix2 p q)) = _
  refine congrArg (V c main_v28) (funext fun a => Fin.ext ?_)
  match a with
  | ⟨0, _⟩ => show win1_0.index t (0 : Fin 2) * 4000 + 1 * p.val = 4000 * t.val + p.val; rw [(idx_own t).1]; omega
  | ⟨1, _⟩ => show win1_0.index t (1 : Fin 2) * 64 + 1 * q.val = q.val; rw [(idx_own t).2]; omega

theorem agg_blk (c : Dev nD) (t : Fin cfg1.N) (p : Fin 4000) (q : Fin 64) :
    (iblk1 V c 1 t : Vec Ideal S4000x64 .f32) (ix2 p q) = V c main_v41 (ix2 (rowOf t.val (lt25 t) p) q) := by
  show V c main_v41 (((cfg1.win 1).blk t).view.emb (ix2 p q)) = _
  refine congrArg (V c main_v41) (funext fun a => Fin.ext ?_)
  match a with
  | ⟨0, _⟩ => show win1_1.index t (0 : Fin 2) * 4000 + 1 * p.val = 4000 * t.val + p.val; rw [(idx_agg t).1]; omega
  | ⟨1, _⟩ => show win1_1.index t (1 : Fin 2) * 64 + 1 * q.val = q.val; rw [(idx_agg t).2]; omega

theorem fac_blk (c : Dev nD) (t : Fin cfg1.N) (p : Fin 4000) :
    (iblk1 V c 2 t : Vec Ideal S4000x1 .f32) (ix2 p (0 : Fin 1)) = V c main_v12 (ix2 (rowOf t.val (lt25 t) p) (0 : Fin 1)) := by
  show V c main_v12 (((cfg1.win 2).blk t).view.emb (ix2 p (0 : Fin 1))) = _
  refine congrArg (V c main_v12) (funext fun a => Fin.ext ?_)
  match a with
  | ⟨0, _⟩ => show win1_2.index t (0 : Fin 2) * 4000 + 1 * p.val = 4000 * t.val + p.val; rw [(idx_fac t).1]; omega
  | ⟨1, _⟩ => show win1_2.index t (1 : Fin 2) * 1 + 1 * 0 = 0; rw [(idx_fac t).2]

theorem bias_blk (c : Dev nD) (t : Fin cfg1.N) (q : Fin 64) :
    (iblk1 V c 3 t : Vec Ideal S1x64 .f32) (ix2 (0 : Fin 1) q) = V c main_v42 (ix2 (0 : Fin 1) q) := by
  show V c main_v42 (((cfg1.win 3).blk t).view.emb (ix2 (0 : Fin 1) q)) = _
  refine congrArg (V c main_v42) (funext fun a => Fin.ext ?_)
  match a with
  | ⟨0, _⟩ => show win1_3.index t (0 : Fin 2) * 1 + 1 * 0 = 0; rw [(idx_bias t).1]
  | ⟨1, _⟩ => show win1_3.index t (1 : Fin 2) * 64 + 1 * q.val = q.val; rw [(idx_bias t).2]; omega

/-- The combine of the blocks loaded at point `t`, at row `p` and channel `q`, is the table's entry at row `4000·t + p`. -/
theorem comb_at (c : Dev nD) (t : Fin cfg1.N) (p : Fin 4000) (q : Fin 64) :
    k1_pay3 (iblk1 V c 1 t) (iblk1 V c 0 t) (iblk1 V c 2 t) (iblk1 V c 3 t) (ix2 p q)
      = tbl V c (ix2 (rowOf t.val (lt25 t) p) q) := by
  refine (comb_blk (iblk1 V c 1 t) (iblk1 V c 0 t) (iblk1 V c 2 t) (iblk1 V c 3 t) p q).trans ?_
  rw [own_blk V c t p q, agg_blk V c t p q, fac_blk V c t p, bias_blk V c t q]
  rfl

/-! ## What the three output buffers hold after each point -/

/-- After every point the table's buffer holds the combine of the blocks loaded there. -/
theorem tbl_at (c : Dev nD) (t : Fin cfg1.N) :
    (outsAt1 V c t.val t.isLt).1 = k1_pay3 (iblk1 V c 1 t) (iblk1 V c 0 t) (iblk1 V c 2 t) (iblk1 V c 3 t) := by
  by_cases h0 : t.val % 25 = 0
  · rw [outsAt1_A V c t h0]
    dsimp only
    exact Reg1Pieces.pieceA4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) ((hcond1_0 t).mpr h0)
  · rw [outsAt1_B V c t h0]
    dsimp only
    exact Reg1Pieces.pieceB4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (fun h => h0 ((hcond1_0 t).mp h)) (outsAt1 V c (t.val - 1) (Nat.lt_of_le_of_lt (Nat.sub_le _ _) t.isLt)).2.1 (outsAt1 V c (t.val - 1) (Nat.lt_of_le_of_lt (Nat.sub_le _ _) t.isLt)).2.2

/-- At the first point the running column sums are the first block's. -/
theorem sums_first (c : Dev nD) (t : Fin cfg1.N) (h0 : t.val % 25 = 0) (q : Fin 64) :
    (outsAt1 V c t.val t.isLt).2.1 (ix2 (0 : Fin 1) q)
      = ∑ p : Fin 4000, tbl V c (ix2 (rowOf t.val (lt25 t) p) q) := by
  rw [outsAt1_A V c t h0]
  dsimp only
  refine (congrFun (Reg1Pieces.pieceA5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) ((hcond1_0 t).mpr h0)) (ix2 (0 : Fin 1) q)).trans ?_
  refine (sums_blk (iblk1 V c 1 t) (iblk1 V c 0 t) (iblk1 V c 2 t) (iblk1 V c 3 t) (k1_pay1 (F := Ideal)) q).trans ?_
  rw [clear5 q, zero_add]
  exact Finset.sum_congr rfl fun p _ => comb_at V c t p q

/-- At a later point they are those of the point before plus the block's. -/
theorem sums_next (c : Dev nD) (t : Fin cfg1.N) (h0 : ¬t.val % 25 = 0) (q : Fin 64) :
    (outsAt1 V c t.val t.isLt).2.1 (ix2 (0 : Fin 1) q)
      = (outsAt1 V c (t.val - 1) (Nat.lt_of_le_of_lt (Nat.sub_le _ _) t.isLt)).2.1 (ix2 (0 : Fin 1) q) + ∑ p : Fin 4000, tbl V c (ix2 (rowOf t.val (lt25 t) p) q) := by
  rw [outsAt1_B V c t h0]
  dsimp only
  refine (congrFun (Reg1Pieces.pieceB5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (fun h => h0 ((hcond1_0 t).mp h)) (outsAt1 V c (t.val - 1) (Nat.lt_of_le_of_lt (Nat.sub_le _ _) t.isLt)).2.1 (outsAt1 V c (t.val - 1) (Nat.lt_of_le_of_lt (Nat.sub_le _ _) t.isLt)).2.2) (ix2 (0 : Fin 1) q)).trans ?_
  refine (sums_blk (iblk1 V c 1 t) (iblk1 V c 0 t) (iblk1 V c 2 t) (iblk1 V c 3 t) (outsAt1 V c (t.val - 1) (Nat.lt_of_le_of_lt (Nat.sub_le _ _) t.isLt)).2.1 q).trans ?_
  exact congrArg ((outsAt1 V c (t.val - 1) (Nat.lt_of_le_of_lt (Nat.sub_le _ _) t.isLt)).2.1 (ix2 (0 : Fin 1) q) + ·) (Finset.sum_congr rfl fun p _ => comb_at V c t p q)

/-- At the first point the running column sums of squares are the first block's. -/
theorem sqsums_first (c : Dev nD) (t : Fin cfg1.N) (h0 : t.val % 25 = 0) (q : Fin 64) :
    (outsAt1 V c t.val t.isLt).2.2 (ix2 (0 : Fin 1) q)
      = ∑ p : Fin 4000, tbl V c (ix2 (rowOf t.val (lt25 t) p) q) * tbl V c (ix2 (rowOf t.val (lt25 t) p) q) := by
  rw [outsAt1_A V c t h0]
  dsimp only
  refine (congrFun (Reg1Pieces.pieceA6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) ((hcond1_0 t).mpr h0)) (ix2 (0 : Fin 1) q)).trans ?_
  refine (sqsums_blk (iblk1 V c 1 t) (iblk1 V c 0 t) (iblk1 V c 2 t) (iblk1 V c 3 t) (k1_pay2 (F := Ideal)) q).trans ?_
  rw [clear6 q, zero_add]
  exact Finset.sum_congr rfl fun p _ => congrArg₂ (· * ·) (comb_at V c t p q) (comb_at V c t p q)

/-- At a later point they are those of the point before plus the block's. -/
theorem sqsums_next (c : Dev nD) (t : Fin cfg1.N) (h0 : ¬t.val % 25 = 0) (q : Fin 64) :
    (outsAt1 V c t.val t.isLt).2.2 (ix2 (0 : Fin 1) q)
      = (outsAt1 V c (t.val - 1) (Nat.lt_of_le_of_lt (Nat.sub_le _ _) t.isLt)).2.2 (ix2 (0 : Fin 1) q)
        + ∑ p : Fin 4000, tbl V c (ix2 (rowOf t.val (lt25 t) p) q) * tbl V c (ix2 (rowOf t.val (lt25 t) p) q) := by
  rw [outsAt1_B V c t h0]
  dsimp only
  refine (congrFun (Reg1Pieces.pieceB6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (fun h => h0 ((hcond1_0 t).mp h)) (outsAt1 V c (t.val - 1) (Nat.lt_of_le_of_lt (Nat.sub_le _ _) t.isLt)).2.1 (outsAt1 V c (t.val - 1) (Nat.lt_of_le_of_lt (Nat.sub_le _ _) t.isLt)).2.2) (ix2 (0 : Fin 1) q)).trans ?_
  refine (sqsums_blk (iblk1 V c 1 t) (iblk1 V c 0 t) (iblk1 V c 2 t) (iblk1 V c 3 t) (outsAt1 V c (t.val - 1) (Nat.lt_of_le_of_lt (Nat.sub_le _ _) t.isLt)).2.2 q).trans ?_
  exact congrArg ((outsAt1 V c (t.val - 1) (Nat.lt_of_le_of_lt (Nat.sub_le _ _) t.isLt)).2.2 (ix2 (0 : Fin 1) q) + ·)
    (Finset.sum_congr rfl fun p _ => congrArg₂ (· * ·) (comb_at V c t p q) (comb_at V c t p q))

/-- After point `n` the running column sums are those of the first `n + 1` blocks: by induction on the point. -/
theorem sums_upto (c : Dev nD) (q : Fin 64) : ∀ (n : ℕ) (hn : n < cfg1.N),
    (outsAt1 V c n hn).2.1 (ix2 (0 : Fin 1) q)
      = ∑ t : Fin (n + 1), ∑ p : Fin 4000,
          tbl V c (ix2 (rowOf t.val (lt_of_lt_of_le t.isLt (Nat.succ_le_of_lt (lt25 ⟨n, hn⟩))) p) q)
  | 0, hn => by
    refine (sums_first V c ⟨0, hn⟩ (Nat.zero_mod 25) q).trans ?_
    rw [Fin.sum_univ_one]
    rfl
  | n + 1, hn => by
    have hB : ¬(⟨n + 1, hn⟩ : Fin cfg1.N).val % 25 = 0 := by
      have := lt25 ⟨n + 1, hn⟩
      dsimp only at this ⊢
      omega
    have ih := sums_upto c q n (Nat.lt_of_succ_lt hn)
    refine ((sums_next V c ⟨n + 1, hn⟩ hB q).trans ?_).trans (Fin.sum_univ_castSucc _).symm
    exact congrArg₂ (· + ·) ih rfl

/-- Likewise the running column sums of squares. -/
theorem sqsums_upto (c : Dev nD) (q : Fin 64) : ∀ (n : ℕ) (hn : n < cfg1.N),
    (outsAt1 V c n hn).2.2 (ix2 (0 : Fin 1) q)
      = ∑ t : Fin (n + 1), ∑ p : Fin 4000,
          tbl V c (ix2 (rowOf t.val (lt_of_lt_of_le t.isLt (Nat.succ_le_of_lt (lt25 ⟨n, hn⟩))) p) q)
            * tbl V c (ix2 (rowOf t.val (lt_of_lt_of_le t.isLt (Nat.succ_le_of_lt (lt25 ⟨n, hn⟩))) p) q)
  | 0, hn => by
    refine (sqsums_first V c ⟨0, hn⟩ (Nat.zero_mod 25) q).trans ?_
    rw [Fin.sum_univ_one]
    rfl
  | n + 1, hn => by
    have hB : ¬(⟨n + 1, hn⟩ : Fin cfg1.N).val % 25 = 0 := by
      have := lt25 ⟨n + 1, hn⟩
      dsimp only at this ⊢
      omega
    have ih := sqsums_upto c q n (Nat.lt_of_succ_lt hn)
    refine ((sqsums_next V c ⟨n + 1, hn⟩ hB q).trans ?_).trans (Fin.sum_univ_castSucc _).symm
    exact congrArg₂ (· + ·) ih rfl

/-! ## From the blocks to the arrays -/

/-- What point `t` writes back of the table is the table's block `t`. -/
theorem flushed_tbl (c : Dev nD) (t : Fin cfg1.N) :
    (dat1 V c).flushed 4 t = ((cfg1.win 4).blk t).view.read (Elt Ideal) (tbl V c) := by
  show (cfg1.win 4).cut (grid1.coords t) ((dat1 V c).after 4 t) = _
  rw [after1_4, tbl_at V c t]
  funext j
  obtain ⟨p, q, rfl⟩ : ∃ (p : Fin 4000) (q : Fin 64), j = ix2 p q := ⟨j 0, j 1, eq_ix2 j⟩
  show k1_pay3 (iblk1 V c 1 t) (iblk1 V c 0 t) (iblk1 V c 2 t) (iblk1 V c 3 t) (ix2 p q)
    = tbl V c (((cfg1.win 4).blk t).view.emb (ix2 p q))
  refine (comb_at V c t p q).trans (congrArg (tbl V c) (funext fun a => Fin.ext ?_))
  match a with
  | ⟨0, _⟩ => show 4000 * t.val + p.val = win1_4.index t (0 : Fin 2) * 4000 + 1 * p.val; rw [(idx_tbl t).1]; omega
  | ⟨1, _⟩ => show q.val = win1_4.index t (1 : Fin 2) * 64 + 1 * q.val; rw [(idx_tbl t).2]; omega

/-- A row of the table is in point `t`'s block iff each coordinate is in the block's range on its axis. -/
theorem mem_tbl (t : Fin cfg1.N) (i : S100000x64.Idx) :
    i ∈ ((cfg1.win 4).blk t).view.set ↔ ∀ a : Fin 2, win1_4.index t a * S4000x64.size a ≤ (i a).val
      ∧ (i a).val < win1_4.index t a * S4000x64.size a + S4000x64.size a := by
  show i ∈ ((View.whole main_v43_0).slice (win1_4.rect t)).set ↔ _
  rw [View.set_slice_whole, Rect.mem_set_unit]
  exact Iff.rfl

/-- Row `r` is written back by the point `r / 4000`. -/
theorem cover_tbl (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have ht : (i 0).val / 4000 < cfg1.N := by rw [show cfg1.N = 25 from N_1]; omega
  refine ⟨⟨(i 0).val / 4000, ht⟩, flush1_4 _, ?_⟩
  rw [mem_tbl]
  obtain ⟨e0, e1⟩ := idx_tbl ⟨(i 0).val / 4000, ht⟩
  intro a
  match a with
  | ⟨0, _⟩ =>
    show win1_4.index ⟨(i 0).val / 4000, ht⟩ (0 : Fin 2) * 4000 ≤ (i 0).val
      ∧ (i 0).val < win1_4.index ⟨(i 0).val / 4000, ht⟩ (0 : Fin 2) * 4000 + 4000
    rw [e0]; dsimp only; omega
  | ⟨1, _⟩ =>
    show win1_4.index ⟨(i 0).val / 4000, ht⟩ (1 : Fin 2) * 64 ≤ (i 1).val
      ∧ (i 1).val < win1_4.index ⟨(i 0).val / 4000, ht⟩ (1 : Fin 2) * 64 + 64
    rw [e1]; omega

/-- The combined table region 1 leaves. -/
theorem final1_4 (c : Dev nD) : (dat1 V c).arrAt 4 cfg1.N
    = Cert.Spec.comb (V c main_v28) (V c main_v41) (V c main_v12) (V c main_v42) :=
  (dat1 V c).arrAt_eq_of_cover 4 (tbl V c) (fun t _ => flushed_tbl V c t) cover_tbl

/-- The one block of a running row is the whole row: an entry of the block sits at its own place. -/
theorem emb_sum (t : Fin cfg1.N) (q : Fin 64) :
    ((cfg1.win 5).blk t).view.emb (ix2 (0 : Fin 1) q) = ix2 (0 : Fin 1) q := by
  funext a
  apply Fin.ext
  match a with
  | ⟨0, _⟩ => show win1_5.index t (0 : Fin 2) * 1 + 1 * 0 = 0; rw [(idx_sum t).1]
  | ⟨1, _⟩ => show win1_5.index t (1 : Fin 2) * 64 + 1 * q.val = q.val; rw [(idx_sum t).2]; omega

theorem emb_sq (t : Fin cfg1.N) (q : Fin 64) :
    ((cfg1.win 6).blk t).view.emb (ix2 (0 : Fin 1) q) = ix2 (0 : Fin 1) q := by
  funext a
  apply Fin.ext
  match a with
  | ⟨0, _⟩ => show win1_6.index t (0 : Fin 2) * 1 + 1 * 0 = 0; rw [(idx_sq t).1]
  | ⟨1, _⟩ => show win1_6.index t (1 : Fin 2) * 64 + 1 * q.val = q.val; rw [(idx_sq t).2]; omega

/-- After the last point the running column sums are the sums over all 25 blocks, that is over all 100000 rows. -/
theorem sums_last (c : Dev nD) (q : Fin 64) (n : ℕ) (hn : n < cfg1.N) (h24 : n = 24) :
    (outsAt1 V c n hn).2.1 (ix2 (0 : Fin 1) q) = Cert.Spec.colSum (tbl V c) (ix2 (0 : Fin 1) q) := by
  refine (sums_upto V c q n hn).trans ?_
  subst h24
  exact Cert.Math.sum_blocks (fun r => tbl V c (ix2 r q))

theorem sqsums_last (c : Dev nD) (q : Fin 64) (n : ℕ) (hn : n < cfg1.N) (h24 : n = 24) :
    (outsAt1 V c n hn).2.2 (ix2 (0 : Fin 1) q) = Cert.Spec.colSumSq (tbl V c) (ix2 (0 : Fin 1) q) := by
  refine (sqsums_upto V c q n hn).trans ?_
  subst h24
  exact Cert.Math.sum_blocks (fun r => tbl V c (ix2 r q) * tbl V c (ix2 r q))

/-- The one write-back of the column sums, at the last point, writes the sums over all rows. -/
theorem flushed_sum (c : Dev nD) (t : Fin cfg1.N) (hf : (cfg1.win 5).flush t = true) :
    (dat1 V c).flushed 5 t = ((cfg1.win 5).blk t).view.read (Elt Ideal) (Cert.Spec.colSum (tbl V c)) := by
  have h24 : t.val = 24 := by
    have h1 := (flush1_5 t).mp hf
    have h2 := lt25 t
    omega
  show (cfg1.win 5).cut (grid1.coords t) ((dat1 V c).after 5 t) = _
  rw [after1_5]
  funext j
  obtain ⟨u, q, rfl⟩ : ∃ (u : Fin 1) (q : Fin 64), j = ix2 u q := ⟨j 0, j 1, eq_ix2 j⟩
  obtain rfl : u = 0 := Subsingleton.elim _ _
  generalize hG : Cert.Spec.colSum (tbl V c) = G
  show (outsAt1 V c t.val t.isLt).2.1 (ix2 (0 : Fin 1) q) = G (((cfg1.win 5).blk t).view.emb (ix2 (0 : Fin 1) q))
  rw [emb_sum t q, ← hG]
  exact sums_last V c q t.val t.isLt h24

theorem flushed_sq (c : Dev nD) (t : Fin cfg1.N) (hf : (cfg1.win 6).flush t = true) :
    (dat1 V c).flushed 6 t = ((cfg1.win 6).blk t).view.read (Elt Ideal) (Cert.Spec.colSumSq (tbl V c)) := by
  have h24 : t.val = 24 := by
    have h1 := (flush1_6 t).mp hf
    have h2 := lt25 t
    omega
  show (cfg1.win 6).cut (grid1.coords t) ((dat1 V c).after 6 t) = _
  rw [after1_6]
  funext j
  obtain ⟨u, q, rfl⟩ : ∃ (u : Fin 1) (q : Fin 64), j = ix2 u q := ⟨j 0, j 1, eq_ix2 j⟩
  obtain rfl : u = 0 := Subsingleton.elim _ _
  generalize hG : Cert.Spec.colSumSq (tbl V c) = G
  show (outsAt1 V c t.val t.isLt).2.2 (ix2 (0 : Fin 1) q) = G (((cfg1.win 6).blk t).view.emb (ix2 (0 : Fin 1) q))
  rw [emb_sq t q, ← hG]
  exact sqsums_last V c q t.val t.isLt h24

theorem mem_sum (t : Fin cfg1.N) (i : S1x64.Idx) :
    i ∈ ((cfg1.win 5).blk t).view.set ↔ ∀ a : Fin 2, win1_5.index t a * S1x64.size a ≤ (i a).val
      ∧ (i a).val < win1_5.index t a * S1x64.size a + S1x64.size a := by
  show i ∈ ((View.whole main_v43_1).slice (win1_5.rect t)).set ↔ _
  rw [View.set_slice_whole, Rect.mem_set_unit]
  exact Iff.rfl

theorem mem_sq (t : Fin cfg1.N) (i : S1x64.Idx) :
    i ∈ ((cfg1.win 6).blk t).view.set ↔ ∀ a : Fin 2, win1_6.index t a * S1x64.size a ≤ (i a).val
      ∧ (i a).val < win1_6.index t a * S1x64.size a + S1x64.size a := by
  show i ∈ ((View.whole main_v43_2).slice (win1_6.rect t)).set ↔ _
  rw [View.set_slice_whole, Rect.mem_set_unit]
  exact Iff.rfl

theorem last_lt : 24 < cfg1.N := by rw [show cfg1.N = 25 from N_1]; omega

/-- The last point's block covers the whole row. -/
theorem cover_sum (i : S1x64.Idx) :
    ∃ t : Fin cfg1.N, (cfg1.win 5).flush t = true ∧ i ∈ ((cfg1.win 5).blk t).view.set := by
  have hi0 : (i 0).val < 1 := (i 0).isLt
  have hi1 : (i 1).val < 64 := (i 1).isLt
  refine ⟨⟨24, last_lt⟩, (flush1_5 ⟨24, last_lt⟩).mpr rfl, ?_⟩
  rw [mem_sum]
  obtain ⟨e0, e1⟩ := idx_sum ⟨24, last_lt⟩
  intro a
  match a with
  | ⟨0, _⟩ =>
    show win1_5.index ⟨24, last_lt⟩ (0 : Fin 2) * 1 ≤ (i 0).val ∧ (i 0).val < win1_5.index ⟨24, last_lt⟩ (0 : Fin 2) * 1 + 1
    rw [e0]; omega
  | ⟨1, _⟩ =>
    show win1_5.index ⟨24, last_lt⟩ (1 : Fin 2) * 64 ≤ (i 1).val ∧ (i 1).val < win1_5.index ⟨24, last_lt⟩ (1 : Fin 2) * 64 + 64
    rw [e1]; omega

theorem cover_sq (i : S1x64.Idx) :
    ∃ t : Fin cfg1.N, (cfg1.win 6).flush t = true ∧ i ∈ ((cfg1.win 6).blk t).view.set := by
  have hi0 : (i 0).val < 1 := (i 0).isLt
  have hi1 : (i 1).val < 64 := (i 1).isLt
  refine ⟨⟨24, last_lt⟩, (flush1_6 ⟨24, last_lt⟩).mpr rfl, ?_⟩
  rw [mem_sq]
  obtain ⟨e0, e1⟩ := idx_sq ⟨24, last_lt⟩
  intro a
  match a with
  | ⟨0, _⟩ =>
    show win1_6.index ⟨24, last_lt⟩ (0 : Fin 2) * 1 ≤ (i 0).val ∧ (i 0).val < win1_6.index ⟨24, last_lt⟩ (0 : Fin 2) * 1 + 1
    rw [e0]; omega
  | ⟨1, _⟩ =>
    show win1_6.index ⟨24, last_lt⟩ (1 : Fin 2) * 64 ≤ (i 1).val ∧ (i 1).val < win1_6.index ⟨24, last_lt⟩ (1 : Fin 2) * 64 + 64
    rw [e1]; omega

/-- The column sums region 1 leaves. -/
theorem final1_5 (c : Dev nD) : (dat1 V c).arrAt 5 cfg1.N
    = Cert.Spec.colSum (Cert.Spec.comb (V c main_v28) (V c main_v41) (V c main_v12) (V c main_v42)) :=
  (dat1 V c).arrAt_eq_of_cover 5 (Cert.Spec.colSum (tbl V c)) (flushed_sum V c) cover_sum

/-- The column sums of squares region 1 leaves. -/
theorem final1_6 (c : Dev nD) : (dat1 V c).arrAt 6 cfg1.N
    = Cert.Spec.colSumSq (Cert.Spec.comb (V c main_v28) (V c main_v41) (V c main_v12) (V c main_v42)) :=
  (dat1 V c).arrAt_eq_of_cover 6 (Cert.Spec.colSumSq (tbl V c)) (flushed_sq V c) cover_sq

end Cert.KernelIdeal.Reg1

end
-- ==== Proof.KChainA.lean ====
/-
  The first half of the kernel program read back: from the launch through the first weight product and the first
  combine with its statistics. At the boundary after the second region the three arrays it wrote hold the first
  layer's table `hOf` of the arguments, its column sums and the column sums of its squares; the arguments the later
  stretches read are as launched; and the host's index vectors, edge coefficients and degree column — computed once
  before the first region and written by nothing after — hold what the specification calls `srcOf`, `dstOf`,
  `coefOf`, `d2Of` of the edge list.
-/
import proofs.«129052_j67044439491163_1_alg».proof.Proof.Gen.KernelIdeal.Frame
import proofs.«129052_j67044439491163_1_alg».proof.Proof.KChainW1
import proofs.«129052_j67044439491163_1_alg».proof.Proof.Reg0
import proofs.«129052_j67044439491163_1_alg».proof.Proof.Reg1
import Idealize.ShloMosaic.Lib.StableHlo.Run
set_option maxRecDepth 16384

noncomputable section

namespace Cert.KernelIdeal.KChainA

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg)

open Idealize.ShloMosaic.StableHlo Cert.KernelIdeal.KChainW1

/-! ## After the first region: the first weight product is written, everything else is as the host left it -/

/-- The first product: the table times the first weight. -/
theorem W2_v28 (c : Dev nD) : W2 m ρ c (Proc.devRef .tc main_v28) = mm (a0 m c) (a2 m c) := by
  refine (W2_arr m ρ c 2).trans ((Cert.KernelIdeal.Reg0.final0 (V1 m ρ) c).trans ?_)
  show mm (W1 m ρ c (Proc.devRef .tc main_arg0)) (W1 m ρ c (Proc.devRef .tc main_arg2)) = _
  rw [W1_arg0, W1_arg2]

theorem W2_arg3 (c : Dev nD) : W2 m ρ c (Proc.devRef .tc main_arg3) = a3 m c :=
  (W2_of_ne m ρ c main_arg3 (by decide)).trans (W1_arg3 m ρ c)
theorem W2_arg4 (c : Dev nD) : W2 m ρ c (Proc.devRef .tc main_arg4) = a4 m c :=
  (W2_of_ne m ρ c main_arg4 (by decide)).trans (W1_arg4 m ρ c)
theorem W2_arg5 (c : Dev nD) : W2 m ρ c (Proc.devRef .tc main_arg5) = a5 m c :=
  (W2_of_ne m ρ c main_arg5 (by decide)).trans (W1_arg5 m ρ c)
theorem W2_arg6 (c : Dev nD) : W2 m ρ c (Proc.devRef .tc main_arg6) = a6 m c :=
  (W2_of_ne m ρ c main_arg6 (by decide)).trans (W1_arg6 m ρ c)
theorem W2_arg7 (c : Dev nD) : W2 m ρ c (Proc.devRef .tc main_arg7) = a7 m c :=
  (W2_of_ne m ρ c main_arg7 (by decide)).trans (W1_arg7 m ρ c)
theorem W2_v1 (c : Dev nD) : W2 m ρ c (Proc.devRef .tc main_v1) = srcOf (a1 m c) :=
  (W2_of_ne m ρ c main_v1 (by decide)).trans (W1_v1 m ρ c)
theorem W2_v3 (c : Dev nD) : W2 m ρ c (Proc.devRef .tc main_v3) = dstOf (a1 m c) :=
  (W2_of_ne m ρ c main_v3 (by decide)).trans (W1_v3 m ρ c)
theorem W2_v12 (c : Dev nD) : W2 m ρ c (Proc.devRef .tc main_v12) = d2Of (a1 m c) :=
  (W2_of_ne m ρ c main_v12 (by decide)).trans (W1_v12 m ρ c)
theorem W2_v27 (c : Dev nD) : W2 m ρ c (Proc.devRef .tc main_v27) = coefOf (a1 m c) :=
  (W2_of_ne m ρ c main_v27 (by decide)).trans (W1_v27 m ρ c)

/-! ## After the second host stretch: the aggregate of the product and the bias as a row are written -/

theorem W3_v28 (c : Dev nD) : W3 m ρ c (Proc.devRef .tc main_v28) = mm (a0 m c) (a2 m c) := by
  refine Eq.trans ?_ (W2_v28 m ρ c)
  show StableHlo.after hostOps1 (W2 m ρ c) (Proc.devRef .tc main_v28) = _
  after_results
theorem W3_v12 (c : Dev nD) : W3 m ρ c (Proc.devRef .tc main_v12) = d2Of (a1 m c) := by
  refine Eq.trans ?_ (W2_v12 m ρ c)
  show StableHlo.after hostOps1 (W2 m ρ c) (Proc.devRef .tc main_v12) = _
  after_results
theorem W3_v1 (c : Dev nD) : W3 m ρ c (Proc.devRef .tc main_v1) = srcOf (a1 m c) := by
  refine Eq.trans ?_ (W2_v1 m ρ c)
  show StableHlo.after hostOps1 (W2 m ρ c) (Proc.devRef .tc main_v1) = _
  after_results
theorem W3_v3 (c : Dev nD) : W3 m ρ c (Proc.devRef .tc main_v3) = dstOf (a1 m c) := by
  refine Eq.trans ?_ (W2_v3 m ρ c)
  show StableHlo.after hostOps1 (W2 m ρ c) (Proc.devRef .tc main_v3) = _
  after_results
theorem W3_v27 (c : Dev nD) : W3 m ρ c (Proc.devRef .tc main_v27) = coefOf (a1 m c) := by
  refine Eq.trans ?_ (W2_v27 m ρ c)
  show StableHlo.after hostOps1 (W2 m ρ c) (Proc.devRef .tc main_v27) = _
  after_results
theorem W3_arg4 (c : Dev nD) : W3 m ρ c (Proc.devRef .tc main_arg4) = a4 m c := by
  refine Eq.trans ?_ (W2_arg4 m ρ c)
  show StableHlo.after hostOps1 (W2 m ρ c) (Proc.devRef .tc main_arg4) = _
  after_results
theorem W3_arg5 (c : Dev nD) : W3 m ρ c (Proc.devRef .tc main_arg5) = a5 m c := by
  refine Eq.trans ?_ (W2_arg5 m ρ c)
  show StableHlo.after hostOps1 (W2 m ρ c) (Proc.devRef .tc main_arg5) = _
  after_results
theorem W3_arg6 (c : Dev nD) : W3 m ρ c (Proc.devRef .tc main_arg6) = a6 m c := by
  refine Eq.trans ?_ (W2_arg6 m ρ c)
  show StableHlo.after hostOps1 (W2 m ρ c) (Proc.devRef .tc main_arg6) = _
  after_results
theorem W3_arg7 (c : Dev nD) : W3 m ρ c (Proc.devRef .tc main_arg7) = a7 m c := by
  refine Eq.trans ?_ (W2_arg7 m ρ c)
  show StableHlo.after hostOps1 (W2 m ρ c) (Proc.devRef .tc main_arg7) = _
  after_results

set_option maxHeartbeats 4000000 in
/-- The aggregate of the first product: the product's rows gathered at the wrapped sources, each scaled by its
    edge's coefficient, added into the destination rows of a zero table. -/
theorem W3_v41 (c : Dev nD) : W3 m ρ c (Proc.devRef .tc main_v41) = aggOf (a1 m c) (mm (a0 m c) (a2 m c)) := by
  show StableHlo.after hostOps1 (W2 m ρ c) (Proc.devRef .tc main_v41) = _
  after_results
  rw [W2_v3, W2_v28, W2_v1, W2_v27]
  rfl

/-- The first bias as a row. -/
theorem W3_v42 (c : Dev nD) : W3 m ρ c (Proc.devRef .tc main_v42) = rowOf (a3 m c) := by
  show StableHlo.after hostOps1 (W2 m ρ c) (Proc.devRef .tc main_v42) = _
  after_results
  rw [W2_arg3]
  rfl

/-! ## After the second region -/

/-- The first layer's table: the combine of the product, its aggregate, the degree column and the bias row. -/
theorem W4_h (c : Dev nD) : W4 m ρ c (Proc.devRef .tc main_v43_0) = hOf (a0 m c) (a1 m c) (a2 m c) (a3 m c) := by
  refine (W4_arr m ρ c 4).trans ((Cert.KernelIdeal.Reg1.final1_4 (V3 m ρ) c).trans ?_)
  show comb (W3 m ρ c (Proc.devRef .tc main_v28)) (W3 m ρ c (Proc.devRef .tc main_v41))
    (W3 m ρ c (Proc.devRef .tc main_v12)) (W3 m ρ c (Proc.devRef .tc main_v42)) = _
  rw [W3_v28, W3_v41, W3_v12, W3_v42]
  rfl
/-- Its column sums. -/
theorem W4_sum (c : Dev nD) : W4 m ρ c (Proc.devRef .tc main_v43_1) = colSum (hOf (a0 m c) (a1 m c) (a2 m c) (a3 m c)) := by
  refine (W4_arr m ρ c 5).trans ((Cert.KernelIdeal.Reg1.final1_5 (V3 m ρ) c).trans ?_)
  show colSum (comb (W3 m ρ c (Proc.devRef .tc main_v28)) (W3 m ρ c (Proc.devRef .tc main_v41))
    (W3 m ρ c (Proc.devRef .tc main_v12)) (W3 m ρ c (Proc.devRef .tc main_v42))) = _
  rw [W3_v28, W3_v41, W3_v12, W3_v42]
  rfl
/-- The column sums of its squares. -/
theorem W4_sq (c : Dev nD) : W4 m ρ c (Proc.devRef .tc main_v43_2) = colSumSq (hOf (a0 m c) (a1 m c) (a2 m c) (a3 m c)) := by
  refine (W4_arr m ρ c 6).trans ((Cert.KernelIdeal.Reg1.final1_6 (V3 m ρ) c).trans ?_)
  show colSumSq (comb (W3 m ρ c (Proc.devRef .tc main_v28)) (W3 m ρ c (Proc.devRef .tc main_v41))
    (W3 m ρ c (Proc.devRef .tc main_v12)) (W3 m ρ c (Proc.devRef .tc main_v42))) = _
  rw [W3_v28, W3_v41, W3_v12, W3_v42]
  rfl
theorem W4_arg4 (c : Dev nD) : W4 m ρ c (Proc.devRef .tc main_arg4) = a4 m c :=
  (W4_of_ne m ρ c main_arg4 (by decide)).trans (W3_arg4 m ρ c)
theorem W4_arg5 (c : Dev nD) : W4 m ρ c (Proc.devRef .tc main_arg5) = a5 m c :=
  (W4_of_ne m ρ c main_arg5 (by decide)).trans (W3_arg5 m ρ c)
theorem W4_arg6 (c : Dev nD) : W4 m ρ c (Proc.devRef .tc main_arg6) = a6 m c :=
  (W4_of_ne m ρ c main_arg6 (by decide)).trans (W3_arg6 m ρ c)
theorem W4_arg7 (c : Dev nD) : W4 m ρ c (Proc.devRef .tc main_arg7) = a7 m c :=
  (W4_of_ne m ρ c main_arg7 (by decide)).trans (W3_arg7 m ρ c)
theorem W4_v1 (c : Dev nD) : W4 m ρ c (Proc.devRef .tc main_v1) = srcOf (a1 m c) :=
  (W4_of_ne m ρ c main_v1 (by decide)).trans (W3_v1 m ρ c)
theorem W4_v3 (c : Dev nD) : W4 m ρ c (Proc.devRef .tc main_v3) = dstOf (a1 m c) :=
  (W4_of_ne m ρ c main_v3 (by decide)).trans (W3_v3 m ρ c)
theorem W4_v27 (c : Dev nD) : W4 m ρ c (Proc.devRef .tc main_v27) = coefOf (a1 m c) :=
  (W4_of_ne m ρ c main_v27 (by decide)).trans (W3_v27 m ρ c)
/-- The degree column is one of the second region's input arrays: the region leaves an input array as it found it. -/
theorem W4_v12 (c : Dev nD) : W4 m ρ c (Proc.devRef .tc main_v12) = d2Of (a1 m c) :=
  ((W4_arr m ρ c 2).trans (((dat1 (V3 m ρ) c).arrAt_in 2 rfl _).trans (A_eq1 (V3 m ρ) c 2))).trans (W3_v12 m ρ c)

end Cert.KernelIdeal.KChainA

end
-- ==== Proof.Reg2.lean ====
/-
  The normalisation between the layers, block by block: grid point `t` takes rows 4000·t … 4000·t+3999 of the
  table and the four one-row operands (mean, inverse deviation, scale, shift), each broadcast down the rows, and
  writes `max ((h - mean) · rstd · γ + β) 0` back as the same rows; the 25 blocks fill the result.
-/
import proofs.«129052_j67044439491163_1_alg».proof.Proof.Gen.KernelIdeal.Frame
import proofs.«129052_j67044439491163_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered (any: the run instantiates it)
variable (V : (c : Dev nD) → (b : Ref sig .tc) → Buf (Elt Ideal) ((c : Thread nD τ).loc b))

/-- The zero offsets of a whole-buffer access, as the constant function. -/
theorem hz : (![0, 0] : Fin 2 → Nat) = fun _ => 0 := funext fun a => by fin_cases a <;> rfl

/-- The block indices of the six windows, over the 25 grid points: the row-tiled windows sit at block `(t, 0)`, the
    four one-row operands at block `(0, 0)`. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The normalisation at one entry of a block: `max ((h - mean) · rstd · γ + β) 0`, each row operand at its one row. -/
theorem pay_apply (v0 : Vec Ideal S4000x64 .f32) (v2 v6 v10 v14 : Vec Ideal S1x64 .f32) (p : Fin 4000) (q : Fin 64) :
    k2_pay1 v0 v2 v6 v10 v14 (ix2 p q)
      = max ((v0 (ix2 p q) - v2 (ix2 (0 : Fin 1) q)) * v6 (ix2 (0 : Fin 1) q) * v10 (ix2 (0 : Fin 1) q)
          + v14 (ix2 (0 : Fin 1) q)) (Ideal.ofBits .f32 0x00000000#32) := by
  unfold k2_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  rfl

/-- The staged arrays of the five input windows, in window order: table, mean, inverse deviation, scale, shift. -/
example : Pipeline.arrRef spec2 0 = main_v43_0 := rfl
example : Pipeline.arrRef spec2 1 = main_v45 := rfl
example : Pipeline.arrRef spec2 2 = main_v52 := rfl
example : Pipeline.arrRef spec2 3 = main_v53 := rfl
example : Pipeline.arrRef spec2 4 = main_v54 := rfl

/-- The table block at point `t` is rows 4000·t … of the table. -/
theorem blk0_apply (c : Dev nD) (t : Fin cfg2.N) (p : Fin 4000) (q : Fin 64) (k : S100000x64.Idx)
    (hk0 : (k 0).val = t.val * 4000 + p.val) (hk1 : (k 1).val = q.val) :
    iblk2 V c 0 t (ix2 p q) = (V c main_v43_0 : S100000x64.Idx → Elt Ideal .f32) k := by
  obtain ⟨a0, a1, b0, b1, d0, d1, e0, e1, g0, g1, o0, o1⟩ := idx_facts t
  show V c main_v43_0 (((cfg2.win 0).blk t).view.emb (ix2 p q)) = V c main_v43_0 k
  refine congrArg (V c main_v43_0) (funext fun a => Fin.ext ?_)
  match a with
  | ⟨0, _⟩ => show win2_0.index t (0 : Fin 2) * 4000 + 1 * p.val = (k 0).val; omega
  | ⟨1, _⟩ => show win2_0.index t (1 : Fin 2) * 64 + 1 * q.val = (k 1).val; omega

/-- The mean block at every point is the whole mean row. -/
theorem blk1_apply (c : Dev nD) (t : Fin cfg2.N) (z : Fin 1) (q : Fin 64) (k : S1x64.Idx)
    (hk1 : (k 1).val = q.val) :
    iblk2 V c 1 t (ix2 z q) = (V c main_v45 : S1x64.Idx → Elt Ideal .f32) k := by
  obtain ⟨a0, a1, b0, b1, d0, d1, e0, e1, g0, g1, o0, o1⟩ := idx_facts t
  show V c main_v45 (((cfg2.win 1).blk t).view.emb (ix2 z q)) = V c main_v45 k
  refine congrArg (V c main_v45) (funext fun a => Fin.ext ?_)
  match a with
  | ⟨0, _⟩ =>
    show win2_1.index t (0 : Fin 2) * 1 + 1 * z.val = (k 0).val
    have h1 : (k 0).val < 1 := (k 0).isLt
    have h2 : z.val < 1 := z.isLt
    omega
  | ⟨1, _⟩ => show win2_1.index t (1 : Fin 2) * 64 + 1 * q.val = (k 1).val; omega

/-- The inverse-deviation block at every point is the whole inverse-deviation row. -/
theorem blk2_apply (c : Dev nD) (t : Fin cfg2.N) (z : Fin 1) (q : Fin 64) (k : S1x64.Idx)
    (hk1 : (k 1).val = q.val) :
    iblk2 V c 2 t (ix2 z q) = (V c main_v52 : S1x64.Idx → Elt Ideal .f32) k := by
  obtain ⟨a0, a1, b0, b1, d0, d1, e0, e1, g0, g1, o0, o1⟩ := idx_facts t
  show V c main_v52 (((cfg2.win 2).blk t).view.emb (ix2 z q)) = V c main_v52 k
  refine congrArg (V c main_v52) (funext fun a => Fin.ext ?_)
  match a with
  | ⟨0, _⟩ =>
    show win2_2.index t (0 : Fin 2) * 1 + 1 * z.val = (k 0).val
    have h1 : (k 0).val < 1 := (k 0).isLt
    have h2 : z.val < 1 := z.isLt
    omega
  | ⟨1, _⟩ => show win2_2.index t (1 : Fin 2) * 64 + 1 * q.val = (k 1).val; omega

/-- The scale block at every point is the whole scale row. -/
theorem blk3_apply (c : Dev nD) (t : Fin cfg2.N) (z : Fin 1) (q : Fin 64) (k : S1x64.Idx)
    (hk1 : (k 1).val = q.val) :
    iblk2 V c 3 t (ix2 z q) = (V c main_v53 : S1x64.Idx → Elt Ideal .f32) k := by
  obtain ⟨a0, a1, b0, b1, d0, d1, e0, e1, g0, g1, o0, o1⟩ := idx_facts t
  show V c main_v53 (((cfg2.win 3).blk t).view.emb (ix2 z q)) = V c main_v53 k
  refine congrArg (V c main_v53) (funext fun a => Fin.ext ?_)
  match a with
  | ⟨0, _⟩ =>
    show win2_3.index t (0 : Fin 2) * 1 + 1 * z.val = (k 0).val
    have h1 : (k 0).val < 1 := (k 0).isLt
    have h2 : z.val < 1 := z.isLt
    omega
  | ⟨1, _⟩ => show win2_3.index t (1 : Fin 2) * 64 + 1 * q.val = (k 1).val; omega

/-- The shift block at every point is the whole shift row. -/
theorem blk4_apply (c : Dev nD) (t : Fin cfg2.N) (z : Fin 1) (q : Fin 64) (k : S1x64.Idx)
    (hk1 : (k 1).val = q.val) :
    iblk2 V c 4 t (ix2 z q) = (V c main_v54 : S1x64.Idx → Elt Ideal .f32) k := by
  obtain ⟨a0, a1, b0, b1, d0, d1, e0, e1, g0, g1, o0, o1⟩ := idx_facts t
  show V c main_v54 (((cfg2.win 4).blk t).view.emb (ix2 z q)) = V c main_v54 k
  refine congrArg (V c main_v54) (funext fun a => Fin.ext ?_)
  match a with
  | ⟨0, _⟩ =>
    show win2_4.index t (0 : Fin 2) * 1 + 1 * z.val = (k 0).val
    have h1 : (k 0).val < 1 := (k 0).isLt
    have h2 : z.val < 1 := z.isLt
    omega
  | ⟨1, _⟩ => show win2_4.index t (1 : Fin 2) * 64 + 1 * q.val = (k 1).val; omega

/-- What grid point `t` writes back is rows 4000·t … 4000·t+3999 of the normalisation of the whole table. -/
theorem flushed_eq (c : Dev nD) (t : Fin cfg2.N) :
    (dat2 V c).flushed 5 t = ((cfg2.win 5).blk t).view.read (Elt Ideal)
      (Cert.Spec.norm (V c main_v43_0) (V c main_v45) (V c main_v52) (V c main_v53) (V c main_v54)) := by
  show (cfg2.win 5).cut (grid2.coords t) ((dat2 V c).after 5 t) = _
  rw [after2_5]
  unfold out2_5
  rw [View.canon_unit_zero hz]
  simp only [View.ld_unit_zero (S := S4000x64) hz, View.ld_unit_zero (S := S1x64) hz]
  obtain ⟨a0, a1, b0, b1, d0, d1, e0, e1, g0, g1, o0, o1⟩ := idx_facts t
  have ht : t.val < 25 := Nat.lt_of_lt_of_eq t.isLt (show cfg2.N = 25 from N_2)
  funext j
  obtain ⟨p, q, rfl⟩ : ∃ (p : Fin 4000) (q : Fin 64), j = ix2 p q := ⟨j 0, j 1, eq_ix2 j⟩
  refine (pay_apply (iblk2 V c 0 t) (iblk2 V c 1 t) (iblk2 V c 2 t) (iblk2 V c 3 t) (iblk2 V c 4 t) p q).trans ?_
  have hk : ((cfg2.win 5).blk t).view.emb (ix2 p q)
      = (ix2 (⟨t.val * 4000 + p.val, by have := p.isLt; omega⟩ : Fin 100000) q : S100000x64.Idx) := by
    funext a; apply Fin.ext
    match a with
    | ⟨0, _⟩ => show win2_5.index t (0 : Fin 2) * 4000 + 1 * p.val = t.val * 4000 + p.val; omega
    | ⟨1, _⟩ => show win2_5.index t (1 : Fin 2) * 64 + 1 * q.val = q.val; omega
  show _ = Cert.Spec.norm (V c main_v43_0) (V c main_v45) (V c main_v52) (V c main_v53) (V c main_v54)
    (((cfg2.win 5).blk t).view.emb (ix2 p q))
  rw [hk]
  unfold Cert.Spec.norm
  rw [blk0_apply V c t p q (ix2 (⟨t.val * 4000 + p.val, by have := p.isLt; omega⟩ : Fin 100000) q) rfl rfl,
    blk1_apply V c t (0 : Fin 1) q (ix2 (0 : Fin 1) q) rfl,
    blk2_apply V c t (0 : Fin 1) q (ix2 (0 : Fin 1) q) rfl,
    blk3_apply V c t (0 : Fin 1) q (ix2 (0 : Fin 1) q) rfl,
    blk4_apply V c t (0 : Fin 1) q (ix2 (0 : Fin 1) q) rfl]

/-- An index of the result array is in point `t`'s block iff each coordinate is in the block's range on its axis. -/
theorem mem_blk (t : Fin cfg2.N) (i : S100000x64.Idx) :
    i ∈ ((cfg2.win 5).blk t).view.set ↔ ∀ a : Fin 2, win2_5.index t a * S4000x64.size a ≤ (i a).val
      ∧ (i a).val < win2_5.index t a * S4000x64.size a + S4000x64.size a := by
  show i ∈ ((View.whole main_v55).slice (win2_5.rect t)).set ↔ _
  rw [View.set_slice_whole, Rect.mem_set_unit]
  exact Iff.rfl

/-- Every row of the result lies in some point's block: row `r` in the block of point `r / 4000`. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 25 := N_2
  let t : Fin cfg2.N := ⟨(i 0).val / 4000, by rw [hN]; omega⟩
  obtain ⟨a0, a1, b0, b1, d0, d1, e0, e1, g0, g1, o0, o1⟩ := idx_facts t
  have htv : t.val = (i 0).val / 4000 := rfl
  refine ⟨t, flush2_5 t, ?_⟩
  rw [mem_blk]
  intro a
  match a with
  | ⟨0, _⟩ =>
    show win2_5.index t (0 : Fin 2) * 4000 ≤ (i 0).val ∧ (i 0).val < win2_5.index t (0 : Fin 2) * 4000 + 4000
    omega
  | ⟨1, _⟩ =>
    show win2_5.index t (1 : Fin 2) * 64 ≤ (i 1).val ∧ (i 1).val < win2_5.index t (1 : Fin 2) * 64 + 64
    omega

/-- The array region 2 leaves: the normalised, scaled, shifted and clipped table. -/
theorem final2 (c : Dev nD) : (dat2 V c).arrAt 5 cfg2.N
    = Cert.Spec.norm (V c main_v43_0) (V c main_v45) (V c main_v52) (V c main_v53) (V c main_v54) :=
  (dat2 V c).arrAt_eq_of_cover 5
    (Cert.Spec.norm (V c main_v43_0) (V c main_v45) (V c main_v52) (V c main_v53) (V c main_v54))
    (fun t _ => flushed_eq V c t) cover

end Cert.KernelIdeal.Reg2

end
-- ==== Proof.Reg3.lean ====
/-
  The second weight product, block by block: grid point `t` multiplies rows 4000·t … 4000·t+3999 of the normalised
  table by the whole 64 x 64 weight (the conversions to the narrower float format on the way in are the identity on
  the ideal values) and writes them back as the same rows of the result; the 25 blocks fill the result, which is
  therefore the whole product `mm`.
-/
import proofs.«129052_j67044439491163_1_alg».proof.Proof.Gen.KernelIdeal.Frame
import proofs.«129052_j67044439491163_1_alg».proof.Proof.Spec
import proofs.«129052_j67044439491163_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered (any: the run instantiates it)
variable (V : (c : Dev nD) → (b : Ref sig .tc) → Buf (Elt Ideal) ((c : Thread nD τ).loc b))

/-- The zero offsets of a whole-buffer access, as the constant function. -/
theorem origin_zero : (![0, 0] : Fin 2 → Nat) = fun _ => 0 :=
  funext fun a => by match a with | ⟨0, _⟩ => rfl | ⟨1, _⟩ => rfl

/-- The block indices over the grid: at point `t` the normalised table's window and the result's window sit at block
    row `t`, block column 0; the weight's window is the whole 64 x 64 array, at block (0, 0). -/
theorem block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's payload at entry `(p, q)`: the sum over `k` of `x0 (p, k) · x1 (k, q)` — a plain 4000 x 64 by 64 x 64
    product into the zero accumulator; the reshape of the table's block to its own shape is the identity, and so are
    the conversions to the narrower format on the ideal values. -/
theorem product_apply (x0 : Vec Ideal S4000x64 .f32) (x1 : Vec Ideal S64x64 .f32) (p : Fin 4000) (q : Fin 64) :
    k3_pay1 x0 x1 (ix2 p q) = ∑ k : Fin 64, x0 (ix2 p k) * x1 (ix2 k q) := by
  unfold k3_pay1
  show matmul (F := Ideal) (DotDims.plain 4000 64 64) none
    (truncf (F := Ideal) .bf16
      (shapeCast S4000x64 (x0 : FVec Ideal ⟨2, ![4000, 64]⟩ .f32) shapeCasts_S4000x64_S4000x64 : FVec Ideal ⟨2, ![4000, 64]⟩ .f32)
      bitsLt_bf16_f32)
    (truncf (F := Ideal) .bf16 (x1 : FVec Ideal ⟨2, ![64, 64]⟩ .f32) bitsLt_bf16_f32)
    (constant (F := Ideal) ⟨2, ![4000, 64]⟩ .f32 0x00000000#32) (ix2 p q) = _
  rw [shapeCast_self, PlainDot.matmul_zero_apply]
  rfl

/-- What point `t` writes back is block `t` of the whole product: entry `(p, q)` of the block is the sum over `k` of
    the table's block at `(p, k)` times the weight at `(k, q)`; the table's block row `p` is the table's row
    `4000 · t + p`, which is the row of the result the entry is written to, and the weight is read whole. -/
theorem flushed_eq (c : Dev nD) (t : Fin cfg3.N) :
    (dat3 V c).flushed 2 t = ((cfg3.win 2).blk t).view.read (Elt Ideal) (Cert.Spec.mm (V c main_v55) (V c main_arg6)) := by
  show (cfg3.win 2).cut (grid3.coords t) ((dat3 V c).after 2 t) = _
  rw [after3_2]
  unfold out3_2
  rw [View.canon_unit_zero origin_zero]
  simp only [View.ld_unit_zero (S := S4000x64) origin_zero, View.ld_unit_zero (S := S64x64) origin_zero]
  funext j
  obtain ⟨p, q, rfl⟩ : ∃ (p : Fin 4000) (q : Fin 64), j = ix2 p q := ⟨j 0, j 1, eq_ix2 j⟩
  show k3_pay1 (iblk3 V c 0 t) (iblk3 V c 1 t) (ix2 p q)
    = Cert.Spec.mm (V c main_v55) (V c main_arg6) (((cfg3.win 2).blk t).view.emb (ix2 p q))
  refine (product_apply (iblk3 V c 0 t) (iblk3 V c 1 t) p q).trans ?_
  unfold Cert.Spec.mm
  refine Finset.sum_congr rfl fun k _ => ?_
  obtain ⟨e00, e01, e10, e11, e20, e21⟩ := block_indices t
  -- the table's block at (p, k) is the table at (the result's row, k)
  have hX : iblk3 V c 0 t (ix2 p k) = V c main_v55 (ix2 (((cfg3.win 2).blk t).view.emb (ix2 p q) 0) k) := by
    show V c main_v55 (((cfg3.win 0).blk t).view.emb (ix2 p k)) = _
    refine congrArg (V c main_v55) (funext fun a => Fin.ext ?_)
    match a with
    | ⟨0, _⟩ => show win3_0.index t (0 : Fin 2) * 4000 + 1 * p.val = win3_2.index t (0 : Fin 2) * 4000 + 1 * p.val; omega
    | ⟨1, _⟩ => show win3_0.index t (1 : Fin 2) * 64 + 1 * k.val = k.val; omega
  -- the weight's block at (k, q) is the weight at (k, the result's column)
  have hW : iblk3 V c 1 t (ix2 k q) = V c main_arg6 (ix2 k (((cfg3.win 2).blk t).view.emb (ix2 p q) 1)) := by
    show V c main_arg6 (((cfg3.win 1).blk t).view.emb (ix2 k q)) = _
    refine congrArg (V c main_arg6) (funext fun a => Fin.ext ?_)
    match a with
    | ⟨0, _⟩ => show win3_1.index t (0 : Fin 2) * 64 + 1 * k.val = k.val; omega
    | ⟨1, _⟩ => show win3_1.index t (1 : Fin 2) * 64 + 1 * q.val = win3_2.index t (1 : Fin 2) * 64 + 1 * q.val; omega
  rw [hX, hW]

/-- An index of the result is in point `t`'s block iff each coordinate is in the block's range on its axis. -/
theorem mem_block (t : Fin cfg3.N) (i : S100000x64.Idx) :
    i ∈ ((cfg3.win 2).blk t).view.set ↔ ∀ a : Fin 2, win3_2.index t a * S4000x64.size a ≤ (i a).val ∧ (i a).val < win3_2.index t a * S4000x64.size a + S4000x64.size a := by
  show i ∈ ((View.whole main_v56).slice (win3_2.rect t)).set ↔ _
  rw [View.set_slice_whole, Rect.mem_set_unit]
  exact Iff.rfl

/-- The 25 blocks fill the result: row `r` is in the block of point `r / 4000`, and every column is in every block. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 25 := N_3
  let t : Fin cfg3.N := ⟨(i 0).val / 4000, by show (i 0).val / 4000 < grid3.N; omega⟩
  obtain ⟨e00, e01, e10, e11, e20, e21⟩ := block_indices t
  have ht : t.val = (i 0).val / 4000 := rfl
  refine ⟨t, flush3_2 t, ?_⟩
  rw [mem_block]
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 64 ≤ (i 1).val ∧ (i 1).val < win3_2.index t (1 : Fin 2) * 64 + 64; omega

/-- The array region 3 leaves: the normalised table times the second weight. -/
theorem final3 (c : Dev nD) : (dat3 V c).arrAt 2 cfg3.N = Cert.Spec.mm (V c main_v55) (V c main_arg6) :=
  (dat3 V c).arrAt_eq_of_cover 2 (Cert.Spec.mm (V c main_v55) (V c main_arg6)) (fun t _ => flushed_eq V c t) cover

end Cert.KernelIdeal.Reg3

end
-- ==== Proof.Reg4.lean ====
/-
  The last combine, block by block: grid point `t` takes rows 4000·t … 4000·t+3999 of the product and of the
  aggregate, the same rows of the one-column factor (broadcast along the channels) and the bias row (broadcast down
  the rows), and writes `aggregate + product · factor + bias` back as the same rows; the 25 blocks fill the result.
-/
import proofs.«129052_j67044439491163_1_alg».proof.Proof.Gen.KernelIdeal.Frame
import proofs.«129052_j67044439491163_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg4

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered (any: the run instantiates it)
variable (V : (c : Dev nD) → (b : Ref sig .tc) → Buf (Elt Ideal) ((c : Thread nD τ).loc b))

/-- The zero offsets of a whole-buffer access, as the constant function. -/
theorem hz : (![0, 0] : Fin 2 → Nat) = fun _ => 0 := funext fun a => by fin_cases a <;> rfl

/-- A one-column block broadcast along the channels reads, at `(p, q)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The block indices of the five windows, over the 25 grid points: the row-tiled windows sit at block `(t, 0)`, the
    bias row at block `(0, 0)`. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The combine at one entry of a block: aggregate + product · factor (its one column) + bias (its one row). -/
theorem pay_apply (v0 v2 : Vec Ideal S4000x64 .f32) (v4 : Vec Ideal S4000x1 .f32) (v9 : Vec Ideal S1x64 .f32)
    (p : Fin 4000) (q : Fin 64) :
    k4_pay1 v0 v2 v4 v9 (ix2 p q)
      = v0 (ix2 p q) + v2 (ix2 p q) * v4 (ix2 p (0 : Fin 1)) + v9 (ix2 (0 : Fin 1) q) := by
  unfold k4_pay1
  simp only [shapeCast_self]
  rw [addf_apply, addf_apply, mulf_apply, broadcastTo_a1_ab_apply, broadcastTo_1b_ab_apply]

/-- The product block at point `t` is rows 4000·t … of the product array. -/
theorem blk0_apply (c : Dev nD) (t : Fin cfg4.N) (p : Fin 4000) (q : Fin 64) (k : S100000x64.Idx)
    (hk0 : (k 0).val = t.val * 4000 + p.val) (hk1 : (k 1).val = q.val) :
    iblk4 V c 0 t (ix2 p q) = (V c main_v56 : S100000x64.Idx → Elt Ideal .f32) k := by
  obtain ⟨a0, a1, b0, b1, d0, d1, e0, e1, o0, o1⟩ := idx_facts t
  show V c main_v56 (((cfg4.win 0).blk t).view.emb (ix2 p q)) = V c main_v56 k
  refine congrArg (V c main_v56) (funext fun a => Fin.ext ?_)
  match a with
  | ⟨0, _⟩ => show win4_0.index t (0 : Fin 2) * 4000 + 1 * p.val = (k 0).val; omega
  | ⟨1, _⟩ => show win4_0.index t (1 : Fin 2) * 64 + 1 * q.val = (k 1).val; omega

/-- The aggregate block at point `t` is rows 4000·t … of the aggregate array. -/
theorem blk1_apply (c : Dev nD) (t : Fin cfg4.N) (p : Fin 4000) (q : Fin 64) (k : S100000x64.Idx)
    (hk0 : (k 0).val = t.val * 4000 + p.val) (hk1 : (k 1).val = q.val) :
    iblk4 V c 1 t (ix2 p q) = (V c main_v69 : S100000x64.Idx → Elt Ideal .f32) k := by
  obtain ⟨a0, a1, b0, b1, d0, d1, e0, e1, o0, o1⟩ := idx_facts t
  show V c main_v69 (((cfg4.win 1).blk t).view.emb (ix2 p q)) = V c main_v69 k
  refine congrArg (V c main_v69) (funext fun a => Fin.ext ?_)
  match a with
  | ⟨0, _⟩ => show win4_1.index t (0 : Fin 2) * 4000 + 1 * p.val = (k 0).val; omega
  | ⟨1, _⟩ => show win4_1.index t (1 : Fin 2) * 64 + 1 * q.val = (k 1).val; omega

/-- The factor block at point `t` is rows 4000·t … of the one-column factor array. -/
theorem blk2_apply (c : Dev nD) (t : Fin cfg4.N) (p : Fin 4000) (z : Fin 1) (k : S100000x1.Idx)
    (hk0 : (k 0).val = t.val * 4000 + p.val) :
    iblk4 V c 2 t (ix2 p z) = (V c main_v12 : S100000x1.Idx → Elt Ideal .f32) k := by
  obtain ⟨a0, a1, b0, b1, d0, d1, e0, e1, o0, o1⟩ := idx_facts t
  show V c main_v12 (((cfg4.win 2).blk t).view.emb (ix2 p z)) = V c main_v12 k
  refine congrArg (V c main_v12) (funext fun a => Fin.ext ?_)
  match a with
  | ⟨0, _⟩ => show win4_2.index t (0 : Fin 2) * 4000 + 1 * p.val = (k 0).val; omega
  | ⟨1, _⟩ =>
    show win4_2.index t (1 : Fin 2) * 1 + 1 * z.val = (k 1).val
    have h1 : (k 1).val < 1 := (k 1).isLt
    have h2 : z.val < 1 := z.isLt
    omega

/-- The bias block at every point is the whole bias row. -/
theorem blk3_apply (c : Dev nD) (t : Fin cfg4.N) (z : Fin 1) (q : Fin 64) (k : S1x64.Idx)
    (hk1 : (k 1).val = q.val) :
    iblk4 V c 3 t (ix2 z q) = (V c main_v70 : S1x64.Idx → Elt Ideal .f32) k := by
  obtain ⟨a0, a1, b0, b1, d0, d1, e0, e1, o0, o1⟩ := idx_facts t
  show V c main_v70 (((cfg4.win 3).blk t).view.emb (ix2 z q)) = V c main_v70 k
  refine congrArg (V c main_v70) (funext fun a => Fin.ext ?_)
  match a with
  | ⟨0, _⟩ =>
    show win4_3.index t (0 : Fin 2) * 1 + 1 * z.val = (k 0).val
    have h1 : (k 0).val < 1 := (k 0).isLt
    have h2 : z.val < 1 := z.isLt
    omega
  | ⟨1, _⟩ => show win4_3.index t (1 : Fin 2) * 64 + 1 * q.val = (k 1).val; omega

/-- What grid point `t` writes back is rows 4000·t … 4000·t+3999 of the combine of the whole arrays. -/
theorem flushed_eq (c : Dev nD) (t : Fin cfg4.N) :
    (dat4 V c).flushed 4 t = ((cfg4.win 4).blk t).view.read (Elt Ideal)
      (Cert.Spec.comb (V c main_v56) (V c main_v69) (V c main_v12) (V c main_v70)) := by
  show (cfg4.win 4).cut (grid4.coords t) ((dat4 V c).after 4 t) = _
  rw [after4_4]
  unfold out4_4
  rw [View.canon_unit_zero hz]
  simp only [View.ld_unit_zero (S := S4000x64) hz, View.ld_unit_zero (S := S4000x1) hz, View.ld_unit_zero (S := S1x64) hz]
  obtain ⟨a0, a1, b0, b1, d0, d1, e0, e1, o0, o1⟩ := idx_facts t
  have ht : t.val < 25 := Nat.lt_of_lt_of_eq t.isLt (show cfg4.N = 25 from N_4)
  funext j
  obtain ⟨p, q, rfl⟩ : ∃ (p : Fin 4000) (q : Fin 64), j = ix2 p q := ⟨j 0, j 1, eq_ix2 j⟩
  refine (pay_apply (iblk4 V c 1 t) (iblk4 V c 0 t) (iblk4 V c 2 t) (iblk4 V c 3 t) p q).trans ?_
  have hk : ((cfg4.win 4).blk t).view.emb (ix2 p q)
      = (ix2 (⟨t.val * 4000 + p.val, by have := p.isLt; omega⟩ : Fin 100000) q : S100000x64.Idx) := by
    funext a; apply Fin.ext
    match a with
    | ⟨0, _⟩ => show win4_4.index t (0 : Fin 2) * 4000 + 1 * p.val = t.val * 4000 + p.val; omega
    | ⟨1, _⟩ => show win4_4.index t (1 : Fin 2) * 64 + 1 * q.val = q.val; omega
  show _ = Cert.Spec.comb (V c main_v56) (V c main_v69) (V c main_v12) (V c main_v70) (((cfg4.win 4).blk t).view.emb (ix2 p q))
  rw [hk]
  unfold Cert.Spec.comb
  rw [blk1_apply V c t p q (ix2 (⟨t.val * 4000 + p.val, by have := p.isLt; omega⟩ : Fin 100000) q) rfl rfl,
    blk0_apply V c t p q (ix2 (⟨t.val * 4000 + p.val, by have := p.isLt; omega⟩ : Fin 100000) q) rfl rfl,
    blk2_apply V c t p (0 : Fin 1) (ix2 (⟨t.val * 4000 + p.val, by have := p.isLt; omega⟩ : Fin 100000) (0 : Fin 1)) rfl,
    blk3_apply V c t (0 : Fin 1) q (ix2 (0 : Fin 1) q) rfl]

/-- An index of the result array is in point `t`'s block iff each coordinate is in the block's range on its axis. -/
theorem mem_blk (t : Fin cfg4.N) (i : S100000x64.Idx) :
    i ∈ ((cfg4.win 4).blk t).view.set ↔ ∀ a : Fin 2, win4_4.index t a * S4000x64.size a ≤ (i a).val
      ∧ (i a).val < win4_4.index t a * S4000x64.size a + S4000x64.size a := by
  show i ∈ ((View.whole main_v71).slice (win4_4.rect t)).set ↔ _
  rw [View.set_slice_whole, Rect.mem_set_unit]
  exact Iff.rfl

/-- Every row of the result lies in some point's block: row `r` in the block of point `r / 4000`. -/
theorem cover (i : S100000x64.Idx) :
    ∃ t : Fin cfg4.N, (cfg4.win 4).flush t = true ∧ i ∈ ((cfg4.win 4).blk t).view.set := by
  have hi0 : (i 0).val < 100000 := (i 0).isLt
  have hi1 : (i 1).val < 64 := (i 1).isLt
  have hN : cfg4.N = 25 := N_4
  let t : Fin cfg4.N := ⟨(i 0).val / 4000, by rw [hN]; omega⟩
  obtain ⟨a0, a1, b0, b1, d0, d1, e0, e1, o0, o1⟩ := idx_facts t
  have htv : t.val = (i 0).val / 4000 := rfl
  refine ⟨t, flush4_4 t, ?_⟩
  rw [mem_blk]
  intro a
  match a with
  | ⟨0, _⟩ =>
    show win4_4.index t (0 : Fin 2) * 4000 ≤ (i 0).val ∧ (i 0).val < win4_4.index t (0 : Fin 2) * 4000 + 4000
    omega
  | ⟨1, _⟩ =>
    show win4_4.index t (1 : Fin 2) * 64 ≤ (i 1).val ∧ (i 1).val < win4_4.index t (1 : Fin 2) * 64 + 64
    omega

/-- The array region 4 leaves: the second layer's combine. -/
theorem final4 (c : Dev nD) : (dat4 V c).arrAt 4 cfg4.N
    = Cert.Spec.comb (V c main_v56) (V c main_v69) (V c main_v12) (V c main_v70) :=
  (dat4 V c).arrAt_eq_of_cover 4 (Cert.Spec.comb (V c main_v56) (V c main_v69) (V c main_v12) (V c main_v70))
    (fun t _ => flushed_eq V c t) cover

end Cert.KernelIdeal.Reg4

end
-- ==== Proof.KChainB.lean ====
/-
  The second half of the kernel program read back: from the boundary after the first combine through the
  statistics' host arithmetic (mean, variance as mean of squares minus squared mean, inverse deviation), the
  normalisation, the second weight product, the second aggregate and the last combine: the result array holds the
  specification's `kout` of the arguments.
-/
import proofs.«129052_j67044439491163_1_alg».proof.Proof.KChainA
import proofs.«129052_j67044439491163_1_alg».proof.Proof.Reg2
import proofs.«129052_j67044439491163_1_alg».proof.Proof.Reg3
import proofs.«129052_j67044439491163_1_alg».proof.Proof.Reg4
import Idealize.ShloMosaic.Lib.StableHlo.Run
set_option maxRecDepth 16384

noncomputable section

namespace Cert.KernelIdeal.KChainB

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg)

open Idealize.ShloMosaic.StableHlo Cert.KernelIdeal.KChainW1 Cert.KernelIdeal.KChainA

/-- The first layer's table of the arguments as launched. -/
abbrev H (c : Dev nD) : FVec Ideal S100000x64 .f32 := hOf (a0 m c) (a1 m c) (a2 m c) (a3 m c)

/-! ## Entering the normalisation: the statistics' host arithmetic -/

/-- The mean row: the column sums over the node count. -/
theorem W5_v45 (c : Dev nD) : W5 m ρ c (Proc.devRef .tc main_v45) = meanOf (H m c) := by
  show StableHlo.after hostOps2 (W4 m ρ c) (Proc.devRef .tc main_v45) = _
  after_results
  rw [W4_sum m ρ c]
  rfl

/-- The variance row: the mean of squares minus the squared mean (the mean, already read, is met twice). -/
theorem W5_v49 (c : Dev nD) : W5 m ρ c (Proc.devRef .tc main_v49) = varOf (H m c) := by
  have n45 := W5_v45 m ρ c
  change StableHlo.after hostOps2 (W4 m ρ c) (Proc.devRef .tc main_v45) = _ at n45
  after_results_at n45
  show StableHlo.after hostOps2 (W4 m ρ c) (Proc.devRef .tc main_v49) = _
  after_results
  rw [n45, W4_sq m ρ c]
  rfl

/-- The inverse deviation row: the inverse square root of the guarded variance. -/
theorem W5_v52 (c : Dev nD) : W5 m ρ c (Proc.devRef .tc main_v52) = rstdOf (H m c) := by
  have n49 := W5_v49 m ρ c
  change StableHlo.after hostOps2 (W4 m ρ c) (Proc.devRef .tc main_v49) = _ at n49
  after_results_at n49
  show StableHlo.after hostOps2 (W4 m ρ c) (Proc.devRef .tc main_v52) = _
  after_results
  rw [n49]
  rfl

/-- The scale as a row. -/
theorem W5_v53 (c : Dev nD) : W5 m ρ c (Proc.devRef .tc main_v53) = rowOf (a4 m c) := by
  show StableHlo.after hostOps2 (W4 m ρ c) (Proc.devRef .tc main_v53) = _
  after_results
  rw [W4_arg4 m ρ c]
  rfl

/-- The shift as a row. -/
theorem W5_v54 (c : Dev nD) : W5 m ρ c (Proc.devRef .tc main_v54) = rowOf (a5 m c) := by
  show StableHlo.after hostOps2 (W4 m ρ c) (Proc.devRef .tc main_v54) = _
  after_results
  rw [W4_arg5 m ρ c]
  rfl

/-- What this stretch does not write is as the boundary before left it. -/
theorem W5_h (c : Dev nD) : W5 m ρ c (Proc.devRef .tc main_v43_0) = H m c := by
  show StableHlo.after hostOps2 (W4 m ρ c) (Proc.devRef .tc main_v43_0) = _
  after_results
  exact W4_h m ρ c
theorem W5_arg6 (c : Dev nD) : W5 m ρ c (Proc.devRef .tc main_arg6) = a6 m c := by
  show StableHlo.after hostOps2 (W4 m ρ c) (Proc.devRef .tc main_arg6) = _
  after_results
  exact W4_arg6 m ρ c
theorem W5_arg7 (c : Dev nD) : W5 m ρ c (Proc.devRef .tc main_arg7) = a7 m c := by
  show StableHlo.after hostOps2 (W4 m ρ c) (Proc.devRef .tc main_arg7) = _
  after_results
  exact W4_arg7 m ρ c
theorem W5_v1 (c : Dev nD) : W5 m ρ c (Proc.devRef .tc main_v1) = srcOf (a1 m c) := by
  show StableHlo.after hostOps2 (W4 m ρ c) (Proc.devRef .tc main_v1) = _
  after_results
  exact W4_v1 m ρ c
theorem W5_v3 (c : Dev nD) : W5 m ρ c (Proc.devRef .tc main_v3) = dstOf (a1 m c) := by
  show StableHlo.after hostOps2 (W4 m ρ c) (Proc.devRef .tc main_v3) = _
  after_results
  exact W4_v3 m ρ c
theorem W5_v27 (c : Dev nD) : W5 m ρ c (Proc.devRef .tc main_v27) = coefOf (a1 m c) := by
  show StableHlo.after hostOps2 (W4 m ρ c) (Proc.devRef .tc main_v27) = _
  after_results
  exact W4_v27 m ρ c
theorem W5_v12 (c : Dev nD) : W5 m ρ c (Proc.devRef .tc main_v12) = d2Of (a1 m c) := by
  show StableHlo.after hostOps2 (W4 m ρ c) (Proc.devRef .tc main_v12) = _
  after_results
  exact W4_v12 m ρ c

/-! ## After the normalisation -/

/-- The normalised, scaled, shifted and clipped table. -/
theorem W6_v55 (c : Dev nD) : W6 m ρ c (Proc.devRef .tc main_v55) = actOf (H m c) (a4 m c) (a5 m c) := by
  refine (W6_arr m ρ c 5).trans ((Cert.KernelIdeal.Reg2.final2 (V5 m ρ) c).trans ?_)
  show norm (W5 m ρ c (Proc.devRef .tc main_v43_0)) (W5 m ρ c (Proc.devRef .tc main_v45)) (W5 m ρ c (Proc.devRef .tc main_v52))
    (W5 m ρ c (Proc.devRef .tc main_v53)) (W5 m ρ c (Proc.devRef .tc main_v54)) = _
  rw [W5_h m ρ c, W5_v45 m ρ c, W5_v52 m ρ c, W5_v53 m ρ c, W5_v54 m ρ c]
  rfl

/-- What the region does not own is as it entered. -/
theorem W6_arg6 (c : Dev nD) : W6 m ρ c (Proc.devRef .tc main_arg6) = a6 m c :=
  (W6_of_ne m ρ c main_arg6 (by decide)).trans (W5_arg6 m ρ c)
theorem W6_arg7 (c : Dev nD) : W6 m ρ c (Proc.devRef .tc main_arg7) = a7 m c :=
  (W6_of_ne m ρ c main_arg7 (by decide)).trans (W5_arg7 m ρ c)
theorem W6_v1 (c : Dev nD) : W6 m ρ c (Proc.devRef .tc main_v1) = srcOf (a1 m c) :=
  (W6_of_ne m ρ c main_v1 (by decide)).trans (W5_v1 m ρ c)
theorem W6_v3 (c : Dev nD) : W6 m ρ c (Proc.devRef .tc main_v3) = dstOf (a1 m c) :=
  (W6_of_ne m ρ c main_v3 (by decide)).trans (W5_v3 m ρ c)
theorem W6_v27 (c : Dev nD) : W6 m ρ c (Proc.devRef .tc main_v27) = coefOf (a1 m c) :=
  (W6_of_ne m ρ c main_v27 (by decide)).trans (W5_v27 m ρ c)
theorem W6_v12 (c : Dev nD) : W6 m ρ c (Proc.devRef .tc main_v12) = d2Of (a1 m c) :=
  (W6_of_ne m ρ c main_v12 (by decide)).trans (W5_v12 m ρ c)

/-! ## After the second weight product -/

/-- The normalised table times the second weight. -/
theorem W7_v56 (c : Dev nD) : W7 m ρ c (Proc.devRef .tc main_v56) = mm (actOf (H m c) (a4 m c) (a5 m c)) (a6 m c) := by
  refine (W7_arr m ρ c 2).trans ((Cert.KernelIdeal.Reg3.final3 (V6 m ρ) c).trans ?_)
  show mm (W6 m ρ c (Proc.devRef .tc main_v55)) (W6 m ρ c (Proc.devRef .tc main_arg6)) = _
  rw [W6_v55 m ρ c, W6_arg6 m ρ c]

theorem W7_arg7 (c : Dev nD) : W7 m ρ c (Proc.devRef .tc main_arg7) = a7 m c :=
  (W7_of_ne m ρ c main_arg7 (by decide)).trans (W6_arg7 m ρ c)
theorem W7_v1 (c : Dev nD) : W7 m ρ c (Proc.devRef .tc main_v1) = srcOf (a1 m c) :=
  (W7_of_ne m ρ c main_v1 (by decide)).trans (W6_v1 m ρ c)
theorem W7_v3 (c : Dev nD) : W7 m ρ c (Proc.devRef .tc main_v3) = dstOf (a1 m c) :=
  (W7_of_ne m ρ c main_v3 (by decide)).trans (W6_v3 m ρ c)
theorem W7_v27 (c : Dev nD) : W7 m ρ c (Proc.devRef .tc main_v27) = coefOf (a1 m c) :=
  (W7_of_ne m ρ c main_v27 (by decide)).trans (W6_v27 m ρ c)
theorem W7_v12 (c : Dev nD) : W7 m ρ c (Proc.devRef .tc main_v12) = d2Of (a1 m c) :=
  (W7_of_ne m ρ c main_v12 (by decide)).trans (W6_v12 m ρ c)

/-! ## Entering the last combine: the second aggregate -/

set_option maxHeartbeats 4000000 in
/-- The second aggregate: every edge's source row of the product, times the edge's coefficient, added into its
    destination row. -/
theorem W8_v69 (c : Dev nD) : W8 m ρ c (Proc.devRef .tc main_v69)
    = aggOf (a1 m c) (mm (actOf (H m c) (a4 m c) (a5 m c)) (a6 m c)) := by
  show StableHlo.after hostOps4 (W7 m ρ c) (Proc.devRef .tc main_v69) = _
  after_results
  rw [W7_v56 m ρ c, W7_v1 m ρ c, W7_v3 m ρ c, W7_v27 m ρ c]
  rfl

/-- The second bias as a row. -/
theorem W8_v70 (c : Dev nD) : W8 m ρ c (Proc.devRef .tc main_v70) = rowOf (a7 m c) := by
  show StableHlo.after hostOps4 (W7 m ρ c) (Proc.devRef .tc main_v70) = _
  after_results
  rw [W7_arg7 m ρ c]
  rfl

theorem W8_v56 (c : Dev nD) : W8 m ρ c (Proc.devRef .tc main_v56) = mm (actOf (H m c) (a4 m c) (a5 m c)) (a6 m c) := by
  show StableHlo.after hostOps4 (W7 m ρ c) (Proc.devRef .tc main_v56) = _
  after_results
  exact W7_v56 m ρ c
theorem W8_v12 (c : Dev nD) : W8 m ρ c (Proc.devRef .tc main_v12) = d2Of (a1 m c) := by
  show StableHlo.after hostOps4 (W7 m ρ c) (Proc.devRef .tc main_v12) = _
  after_results
  exact W7_v12 m ρ c

/-! ## The result -/

/-- The result array after the run is the specification's function of the arguments as launched. -/
theorem out_eq (c : Dev nD) : W9 m ρ c (Proc.devRef .tc main_v71)
    = kout (a0 m c) (a1 m c) (a2 m c) (a3 m c) (a4 m c) (a5 m c) (a6 m c) (a7 m c) := by
  refine (W9_arr m ρ c 4).trans ((Cert.KernelIdeal.Reg4.final4 (V8 m ρ) c).trans ?_)
  show comb (W8 m ρ c (Proc.devRef .tc main_v56)) (W8 m ρ c (Proc.devRef .tc main_v69)) (W8 m ρ c (Proc.devRef .tc main_v12))
    (W8 m ρ c (Proc.devRef .tc main_v70)) = _
  rw [W8_v56 m ρ c, W8_v69 m ρ c, W8_v12 m ρ c, W8_v70 m ρ c]
  rfl

end Cert.KernelIdeal.KChainB

end
-- ==== Proof.RefLayer.lean ====
/-
  The reference's two graph-convolution layers, read stage by stage, are the specification's: the weight product is
  `mm` (the host's contraction at an index is the sum over the 64 shared coordinates), the gather / scale / scatter
  chain is `aggOf` (the same operations in the same order), and the sum of aggregate, own row scaled by the squared
  inverse root degree, and bias is `comb` (the degree column and the bias row read through their broadcasts).
-/
import proofs.«129052_j67044439491163_1_alg».proof.Proof.Gen.ReferenceIdeal.Read
import proofs.«129052_j67044439491163_1_alg».proof.Proof.SpecChain
import proofs.«129052_j67044439491163_1_alg».proof.Proof.Math
import proofs.«129052_j67044439491163_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefLayer

open Idealize.ShloMosaic Idealize.ShloMosaic.ValueIdx
open Cert.ReferenceIdeal Cert.ReferenceIdeal.Gen Cert.ReferenceIdeal.Read Cert.Spec Cert.Math

variable (x0 : FVec Ideal S100000x64 .f32) (x1 : IVec S2x1600000 32) (x2 : FVec Ideal S64x64 .f32)
  (x3 x4 x5 : FVec Ideal S64 .f32) (x6 : FVec Ideal S64x64 .f32) (x7 : FVec Ideal S64 .f32)

/-- The reference's weight product is the sum over the 64 shared coordinates. -/
theorem prod_eq (X : FVec Ideal S100000x64 .f32) (W : FVec Ideal S64x64 .f32) : val_main_v11 (F := Ideal) X W = mm X W := by
  funext i
  rw [val_main_v11_apply]
  unfold mm
  have el : ∀ k : Fin 64, lidx_main_v11 i k = ix2 (i 0) k := fun k =>
    funext fun a => Fin.ext (by match a with | ⟨0, _⟩ => rfl | ⟨1, _⟩ => rfl)
  have er : ∀ k : Fin 64, ridx_main_v11 i k = ix2 k (i 1) := fun k =>
    funext fun a => Fin.ext (by match a with | ⟨0, _⟩ => rfl | ⟨1, _⟩ => rfl)
  simp only [el, er]
  rfl

/-- The reference's inverse square-root degree is the specification's: the same scatter of ones over the destinations. -/
theorem dis_eq : val_main_v10 (F := Ideal) x1 = disOf x1 := by
  unfold val_main_v10 val_main_v9 val_main_v8 val_main_v7 val_main_v6 val_main_v5 val_main_v4 val_main_v3 val_main_v2
    val_main_cst val_main_cst_0 val_main_cst_1 disOf col dstOf
  rfl

/-- Row 0 of the edge list. -/
theorem src_eq : val_main_v1 (F := Ideal) x1 = srcOf x1 := by
  unfold val_main_v1 val_main_v0 srcOf
  rfl

/-- Row 1 of the edge list. -/
theorem dst_eq : val_main_v3 (F := Ideal) x1 = dstOf x1 := by
  unfold val_main_v3 val_main_v2 dstOf
  rfl

/-- The sources read modulo the table (the coefficient's copy of the arithmetic). -/
theorem wsrc_eq : val_main_v16 (F := Ideal) x1 = wrap (srcOf x1) := by
  unfold val_main_v16 val_main_v15 val_main_v14 val_main_v13 val_main_v12 val_main_c val_main_c_2 wrap
  rw [src_eq]

/-- The destinations read modulo the table. -/
theorem wdst_eq : val_main_v23 (F := Ideal) x1 = wrap (dstOf x1) := by
  unfold val_main_v23 val_main_v22 val_main_v21 val_main_v20 val_main_v19 val_main_c_3 val_main_c_4 wrap
  rw [dst_eq]

/-- The sources read modulo the table (the aggregate's copy of the arithmetic). -/
theorem wsrc2_eq : val_main_v32 (F := Ideal) x1 = wrap (srcOf x1) := by
  unfold val_main_v32 val_main_v31 val_main_v30 val_main_v29 val_main_v28 val_main_c_5 val_main_c_6 wrap
  rw [src_eq]

/-- Each edge's coefficient: the inverse root degree gathered at its two ends, multiplied. -/
theorem coef_eq : val_main_v26 (F := Ideal) x1 = coefOf x1 := by
  unfold val_main_v26 val_main_v25 val_main_v24 val_main_v18 val_main_v17 coefOf col
  rw [dis_eq, wsrc_eq, wdst_eq]
  rfl

/-- Layer 1's aggregate is the specification's gather, scale and accumulating scatter of the weight product. -/
theorem agg_eq : val_main_v39 (F := Ideal) x0 x1 x2 = aggOf x1 (val_main_v11 (F := Ideal) x0 x2) := by
  unfold val_main_v39 val_main_v38 val_main_v37 val_main_v36 val_main_v35 val_main_v34 val_main_v33 val_main_v27 val_main_cst_7 aggOf col
  rw [coef_eq, wsrc2_eq, dst_eq]
  rfl

/-- The square of a vector as a column, read at a row. -/
theorem sqcol_apply (D : FVec Ideal S100000 .f32) (h : S100000.ShapeCasts S100000x1) (p : Fin 100000) :
    shapeCast S100000x1 (mulf D D) h (ix2 p (0 : Fin 1)) = D (ix1 p) * D (ix1 p) := by
  rw [shapeCast_apply (mulf D D) h (ix2 p (0 : Fin 1)) (ix1 p)
    (by rewrite [Shape.rowMajor_val_two, Shape.rowMajor_val_one]; show p.val = p.val * 1 + 0; omega)]
  rfl

/-- The squared inverse root degree as a column, read at a node. -/
theorem d2_apply (p : Fin 100000) : d2Of x1 (ix2 p (0 : Fin 1)) = disOf x1 (ix1 p) * disOf x1 (ix1 p) := by
  unfold d2Of
  exact sqcol_apply (disOf x1) _ p

/-- A 64-vector as a one-row table, read at a channel. -/
theorem row_apply (v : FVec Ideal S64 .f32) (q : Fin 64) : rowOf v (ix2 (0 : Fin 1) q) = v (ix1 q) := by
  unfold rowOf
  exact shapeCast_apply v _ (ix2 (0 : Fin 1) q) (ix1 q)
    (by rewrite [Shape.rowMajor_val_two, Shape.rowMajor_val_one]; show q.val = 0 * 64 + q.val; omega)

/-- The combine at a node and a channel. -/
theorem comb_apply (hp ag : FVec Ideal S100000x64 .f32) (d2 : FVec Ideal S100000x1 .f32) (b : FVec Ideal S1x64 .f32)
    (p : Fin 100000) (q : Fin 64) :
    comb hp ag d2 b (ix2 p q) = ag (ix2 p q) + hp (ix2 p q) * d2 (ix2 p (0 : Fin 1)) + b (ix2 (0 : Fin 1) q) := rfl

/-- Layer 1 of the reference is the specification's `hOf`. -/
theorem layer1 : val_main_v47 (F := Ideal) x0 x1 x2 x3 = hOf x0 x1 x2 x3 := by
  funext i
  obtain ⟨p, q, rfl⟩ : ∃ (p : Fin 100000) (q : Fin 64), i = ix2 p q := ⟨i 0, i 1, eq_ix2 i⟩
  have e46 : idx_main_v46 (ix2 p q) = ix2 (0 : Fin 1) q :=
    funext fun a => Fin.ext (by match a with | ⟨0, _⟩ => rfl | ⟨1, _⟩ => rfl)
  have e45 : idx_main_v45 (ix2 (0 : Fin 1) q) = ix1 q :=
    funext fun a => Fin.ext (by match a with | ⟨0, _⟩ => rfl)
  have e42 : idx_main_v42 (ix2 p q) = ix2 p (0 : Fin 1) :=
    funext fun a => Fin.ext (by match a with | ⟨0, _⟩ => rfl | ⟨1, _⟩ => rfl)
  have e41 : idx_main_v41 (ix2 p (0 : Fin 1)) = ix1 p :=
    funext fun a => Fin.ext (by match a with | ⟨0, _⟩ => rfl)
  rw [val_main_v47_apply, val_main_v44_apply, val_main_v43_apply, val_main_v46_apply, val_main_v45_apply,
    val_main_v42_apply, val_main_v41_apply, val_main_v40_apply, e46, e45, e42, e41, agg_eq, prod_eq, dis_eq]
  unfold hOf
  rw [comb_apply, d2_apply, row_apply]
  generalize aggOf x1 (mm x0 x2) (ix2 p q) = a
  generalize mm x0 x2 (ix2 p q) = h
  generalize disOf x1 (ix1 p) = d
  generalize x3 (ix1 q) = b
  rfl

/-- The sources read modulo the table (layer 2's coefficient). -/
theorem wsrc3_eq : val_main_v79 (F := Ideal) x1 = wrap (srcOf x1) := by
  unfold val_main_v79 val_main_v78 val_main_v77 val_main_v76 val_main_v75 val_main_c_13 val_main_c_14 wrap
  rw [src_eq]

/-- The destinations read modulo the table (layer 2's coefficient). -/
theorem wdst2_eq : val_main_v86 (F := Ideal) x1 = wrap (dstOf x1) := by
  unfold val_main_v86 val_main_v85 val_main_v84 val_main_v83 val_main_v82 val_main_c_15 val_main_c_16 wrap
  rw [dst_eq]

/-- The sources read modulo the table (layer 2's aggregate). -/
theorem wsrc4_eq : val_main_v95 (F := Ideal) x1 = wrap (srcOf x1) := by
  unfold val_main_v95 val_main_v94 val_main_v93 val_main_v92 val_main_v91 val_main_c_17 val_main_c_18 wrap
  rw [src_eq]

/-- Layer 2 computes each edge's coefficient again, the same way. -/
theorem coef2_eq : val_main_v89 (F := Ideal) x1 = coefOf x1 := by
  unfold val_main_v89 val_main_v88 val_main_v87 val_main_v81 val_main_v80 coefOf col
  rw [dis_eq, wsrc3_eq, wdst2_eq]
  rfl

/-- Layer 2's aggregate is the specification's gather, scale and accumulating scatter of its weight product. -/
theorem agg2_eq : val_main_v102 (F := Ideal) x0 x1 x2 x3 x4 x5 x6 = aggOf x1 (val_main_v74 (F := Ideal) x0 x1 x2 x3 x4 x5 x6) := by
  unfold val_main_v102 val_main_v101 val_main_v100 val_main_v99 val_main_v98 val_main_v97 val_main_v96 val_main_v90 val_main_cst_19 aggOf col
  rw [coef2_eq, wsrc4_eq, dst_eq]
  rfl

/-- Layer 2's weight product: the same contraction, over the normalised table. -/
theorem prod2_eq : val_main_v74 (F := Ideal) x0 x1 x2 x3 x4 x5 x6 = mm (val_main_v73 (F := Ideal) x0 x1 x2 x3 x4 x5) x6 :=
  (show val_main_v74 (F := Ideal) x0 x1 x2 x3 x4 x5 x6
      = val_main_v11 (F := Ideal) (val_main_v73 (F := Ideal) x0 x1 x2 x3 x4 x5) x6 from rfl).trans (prod_eq _ _)

/-- Layer 2 of the reference is the specification's combine over the product of its normalised table with the second weight. -/
theorem layer2 : val_main_v110 (F := Ideal) x0 x1 x2 x3 x4 x5 x6 x7
    = comb (mm (val_main_v73 (F := Ideal) x0 x1 x2 x3 x4 x5) x6) (aggOf x1 (mm (val_main_v73 (F := Ideal) x0 x1 x2 x3 x4 x5) x6)) (d2Of x1) (rowOf x7) := by
  funext i
  obtain ⟨p, q, rfl⟩ : ∃ (p : Fin 100000) (q : Fin 64), i = ix2 p q := ⟨i 0, i 1, eq_ix2 i⟩
  have e109 : idx_main_v109 (ix2 p q) = ix2 (0 : Fin 1) q :=
    funext fun a => Fin.ext (by match a with | ⟨0, _⟩ => rfl | ⟨1, _⟩ => rfl)
  have e108 : idx_main_v108 (ix2 (0 : Fin 1) q) = ix1 q :=
    funext fun a => Fin.ext (by match a with | ⟨0, _⟩ => rfl)
  have e105 : idx_main_v105 (ix2 p q) = ix2 p (0 : Fin 1) :=
    funext fun a => Fin.ext (by match a with | ⟨0, _⟩ => rfl | ⟨1, _⟩ => rfl)
  have e104 : idx_main_v104 (ix2 p (0 : Fin 1)) = ix1 p :=
    funext fun a => Fin.ext (by match a with | ⟨0, _⟩ => rfl)
  rw [val_main_v110_apply, val_main_v107_apply, val_main_v106_apply, val_main_v109_apply, val_main_v108_apply,
    val_main_v105_apply, val_main_v104_apply, val_main_v103_apply, e109, e108, e105, e104, agg2_eq, prod2_eq, dis_eq]
  rw [comb_apply, d2_apply, row_apply]
  generalize aggOf x1 (mm (val_main_v73 (F := Ideal) x0 x1 x2 x3 x4 x5) x6) (ix2 p q) = a
  generalize mm (val_main_v73 (F := Ideal) x0 x1 x2 x3 x4 x5) x6 (ix2 p q) = h
  generalize disOf x1 (ix1 p) = d
  generalize x7 (ix1 q) = b
  rfl

end Cert.ReferenceIdeal.RefLayer

end
-- ==== Proof.RefStats.lean ====
/-
  The reference's normalisation between the layers is the specification's, when the first layer's table is real.
  The reference takes the mean as the column sum over 100000 and the variance as the mean of the squared deviations
  from it; the specification (as the kernel) takes the variance as the mean of the squares minus the squared mean.
  For real data the two agree (`Cert.Math.var_identity`), so the inverse deviations agree, and the rest — subtract
  the mean, scale by the inverse deviation and by γ, shift by β, clip below at zero — is the same entry by entry.
-/
import proofs.«129052_j67044439491163_1_alg».proof.Proof.Gen.ReferenceIdeal.Read
import proofs.«129052_j67044439491163_1_alg».proof.Proof.SpecChain
import proofs.«129052_j67044439491163_1_alg».proof.Proof.Math
import proofs.«129052_j67044439491163_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefStats

open Idealize.ShloMosaic Idealize.ShloMosaic.ValueIdx
open Cert.ReferenceIdeal Cert.ReferenceIdeal.Gen Cert.ReferenceIdeal.Read Cert.Spec Cert.Math

/-! ### The specification's rows, read at an entry -/

section SpecSide

variable (H : FVec Ideal S100000x64 .f32)

/-- The node-count row holds 100000 everywhere. -/
theorem nRow_apply (i : S1x64.Idx) : nRow i = ((100000 : ℝ) : EReal) :=
  (show nRow i = Ideal.ofBits .f32 0x47C35000#32 from rfl).trans ofBits_n

/-- A 64-vector laid out as a one-row table keeps its entries. -/
theorem rowOf_apply (v : FVec Ideal S64 .f32) (q : Fin 64) : rowOf v (ix2 (0 : Fin 1) q) = v (ix1 q) := by
  unfold rowOf
  exact shapeCast_apply v _ (ix2 (0 : Fin 1) q) (ix1 q)
    (by rewrite [Shape.rowMajor_val_two, Shape.rowMajor_val_one]; show q.val = 0 * 64 + q.val; omega)

/-- The mean of channel `q`: the column's sum over 100000. -/
theorem meanOf_apply (q : Fin 64) :
    meanOf H (ix2 (0 : Fin 1) q) = Ideal.div (∑ r : Fin 100000, H (ix2 r q)) ((100000 : ℝ) : EReal) := by
  show Ideal.div (colSum H (ix2 (0 : Fin 1) q)) (nRow (ix2 (0 : Fin 1) q)) = _
  rw [nRow_apply]
  rfl

/-- The variance of channel `q`: the mean of the squares minus the squared mean. -/
theorem varOf_apply (q : Fin 64) :
    varOf H (ix2 (0 : Fin 1) q)
      = Ideal.div (∑ r : Fin 100000, H (ix2 r q) * H (ix2 r q)) ((100000 : ℝ) : EReal)
        - meanOf H (ix2 (0 : Fin 1) q) * meanOf H (ix2 (0 : Fin 1) q) := by
  show Ideal.div (colSumSq H (ix2 (0 : Fin 1) q)) (nRow (ix2 (0 : Fin 1) q)) - _ = _
  rw [nRow_apply]
  rfl

/-- The inverse deviation of channel `q`: the inverse square root of the guarded variance. -/
theorem rstdOf_apply (q : Fin 64) :
    rstdOf H (ix2 (0 : Fin 1) q) = Ideal.rsqrt (varOf H (ix2 (0 : Fin 1) q) + Ideal.ofBits .f32 0x3727C5AC#32) := rfl

/-- The normalised, scaled, shifted and clipped table at entry `(p, q)`. -/
theorem actOf_apply (g be : FVec Ideal S64 .f32) (p : Fin 100000) (q : Fin 64) :
    actOf H g be (ix2 p q)
      = max ((H (ix2 p q) - meanOf H (ix2 (0 : Fin 1) q)) * rstdOf H (ix2 (0 : Fin 1) q) * rowOf g (ix2 (0 : Fin 1) q)
          + rowOf be (ix2 (0 : Fin 1) q)) (Ideal.ofBits .f32 0x00000000#32) := rfl

end SpecSide

/-! ### The reference's stages, read at an entry -/

section RefSide

variable (x0 : FVec Ideal S100000x64 .f32) (x1 : IVec S2x1600000 32) (x2 : FVec Ideal S64x64 .f32)
  (x3 x4 x5 : FVec Ideal S64 .f32)

/-- The row sums' operand index: row `k` of column `q`. -/
theorem idx48 (q : Fin 64) (k : Fin 100000) : idx_main_v48 (ix1 q) k = ix2 k q :=
  funext fun a => Fin.ext (by match a with | ⟨0, _⟩ => rfl | ⟨1, _⟩ => rfl)
theorem idx55 (q : Fin 64) (k : Fin 100000) : idx_main_v55 (ix1 q) k = ix2 k q :=
  funext fun a => Fin.ext (by match a with | ⟨0, _⟩ => rfl | ⟨1, _⟩ => rfl)
/-- A 64-vector broadcast to a row and then down the rows is read at the column. -/
theorem idx52 (p : Fin 100000) (q : Fin 64) : idx_main_v51 (idx_main_v52 (ix2 p q)) = ix1 q :=
  funext fun a => Fin.ext (by match a with | ⟨0, _⟩ => rfl)
theorem idx59 (p : Fin 100000) (q : Fin 64) : idx_main_v58 (idx_main_v59 (ix2 p q)) = ix1 q :=
  funext fun a => Fin.ext (by match a with | ⟨0, _⟩ => rfl)
theorem idx65 (p : Fin 100000) (q : Fin 64) : idx_main_v64 (idx_main_v65 (ix2 p q)) = ix1 q :=
  funext fun a => Fin.ext (by match a with | ⟨0, _⟩ => rfl)
theorem idx68 (p : Fin 100000) (q : Fin 64) : idx_main_v67 (idx_main_v68 (ix2 p q)) = ix1 q :=
  funext fun a => Fin.ext (by match a with | ⟨0, _⟩ => rfl)
theorem idx71 (p : Fin 100000) (q : Fin 64) : idx_main_v70 (idx_main_v71 (ix2 p q)) = ix1 q :=
  funext fun a => Fin.ext (by match a with | ⟨0, _⟩ => rfl)

/-- The reference's mean of channel `q`: the column's sum (its zero start dropped) over 100000. -/
theorem ref_mean (q : Fin 64) :
    val_main_v50 (F := Ideal) x0 x1 x2 x3 (ix1 q)
      = Ideal.div (∑ r : Fin 100000, val_main_v47 (F := Ideal) x0 x1 x2 x3 (ix2 r q)) ((100000 : ℝ) : EReal) := by
  rw [val_main_v50_apply, val_main_v48_apply, val_main_v49_apply, val_main_cst_9_apply, val_main_cst_8_apply]
  simp only [Ideal.hostDivf_def, Ideal.ofBits_def, ofBits_zero, ofBits_n, zero_add, idx48]

/-- The reference's deviation from the mean at entry `(p, q)`. -/
theorem ref_dev (p : Fin 100000) (q : Fin 64) :
    val_main_v53 (F := Ideal) x0 x1 x2 x3 (ix2 p q)
      = val_main_v47 (F := Ideal) x0 x1 x2 x3 (ix2 p q) - val_main_v50 (F := Ideal) x0 x1 x2 x3 (ix1 q) := by
  rw [val_main_v53_apply, val_main_v52_apply, val_main_v51_apply, idx52, Ideal.subf_def]

/-- The reference's squared deviation at row `r` of channel `q`, as the row sum reads it. -/
theorem ref_sq (q : Fin 64) (r : Fin 100000) :
    val_main_v54 (F := Ideal) x0 x1 x2 x3 (idx_main_v55 (ix1 q) r)
      = (val_main_v47 (F := Ideal) x0 x1 x2 x3 (ix2 r q) - val_main_v50 (F := Ideal) x0 x1 x2 x3 (ix1 q))
          * (val_main_v47 (F := Ideal) x0 x1 x2 x3 (ix2 r q) - val_main_v50 (F := Ideal) x0 x1 x2 x3 (ix1 q)) := by
  rw [idx55, val_main_v54_apply, Ideal.mulf_def, ref_dev]

/-- The reference's variance of channel `q`: the mean of the squared deviations. -/
theorem ref_var (q : Fin 64) :
    val_main_v57 (F := Ideal) x0 x1 x2 x3 (ix1 q)
      = Ideal.div (∑ r : Fin 100000,
          (val_main_v47 (F := Ideal) x0 x1 x2 x3 (ix2 r q) - val_main_v50 (F := Ideal) x0 x1 x2 x3 (ix1 q))
            * (val_main_v47 (F := Ideal) x0 x1 x2 x3 (ix2 r q) - val_main_v50 (F := Ideal) x0 x1 x2 x3 (ix1 q)))
          ((100000 : ℝ) : EReal) := by
  rw [val_main_v57_apply, val_main_v55_apply, val_main_v56_apply, val_main_cst_11_apply, val_main_cst_10_apply,
    Ideal.hostDivf_def, Ideal.ofBits_def, Ideal.ofBits_def, ofBits_zero, ofBits_n, zero_add,
    Fintype.sum_congr _ _ (ref_sq x0 x1 x2 x3 q)]

/-- The reference's inverse deviation of channel `q`. -/
theorem ref_rstd (q : Fin 64) :
    val_main_v63 (F := Ideal) x0 x1 x2 x3 (ix1 q)
      = Ideal.rsqrt (val_main_v57 (F := Ideal) x0 x1 x2 x3 (ix1 q) + Ideal.ofBits .f32 0x3727C5AC#32) := by
  rw [val_main_v63_apply, val_main_v62_apply, val_main_v61_apply, val_main_cst_12_apply,
    Ideal.hostUnary_rsqrt_def, Ideal.addf_def, Ideal.ofBits_def]

/-- The reference's result at entry `(p, q)`. -/
theorem ref_out (p : Fin 100000) (q : Fin 64) :
    val_main_v73 (F := Ideal) x0 x1 x2 x3 x4 x5 (ix2 p q)
      = max ((val_main_v47 (F := Ideal) x0 x1 x2 x3 (ix2 p q) - val_main_v50 (F := Ideal) x0 x1 x2 x3 (ix1 q))
            * val_main_v63 (F := Ideal) x0 x1 x2 x3 (ix1 q) * x4 (ix1 q) + x5 (ix1 q))
          (Ideal.ofBits .f32 0x00000000#32) := by
  rw [val_main_v73_apply, val_main_v72_apply, val_main_v69_apply, val_main_v66_apply, val_main_v60_apply,
    val_main_v59_apply, val_main_v58_apply, val_main_v65_apply, val_main_v64_apply, val_main_v68_apply,
    val_main_v67_apply, val_main_v71_apply, val_main_v70_apply, val_main_call0_v0_apply, val_main_call0_cst_apply,
    idx59, idx65, idx68, idx71]
  simp only [Ideal.maximumf_def, Ideal.addf_def, Ideal.mulf_def, Ideal.subf_def, Ideal.ofBits_def]

end RefSide

/-! ### The two sides meet -/

section Meet

variable (x0 : FVec Ideal S100000x64 .f32) (x1 : IVec S2x1600000 32) (x2 : FVec Ideal S64x64 .f32)
  (x3 x4 x5 : FVec Ideal S64 .f32) (x6 : FVec Ideal S64x64 .f32) (x7 : FVec Ideal S64 .f32)

/-- The means agree. -/
theorem mean_eq (q : Fin 64) :
    meanOf (val_main_v47 (F := Ideal) x0 x1 x2 x3) (ix2 (0 : Fin 1) q) = val_main_v50 (F := Ideal) x0 x1 x2 x3 (ix1 q) := by
  rw [meanOf_apply, ref_mean]

/-- The variances agree when the table is real: the mean of the squared deviations is the mean of the squares minus
    the squared mean. -/
theorem var_eq (hr : ∀ i, IsReal (val_main_v47 (F := Ideal) x0 x1 x2 x3 i)) (q : Fin 64) :
    varOf (val_main_v47 (F := Ideal) x0 x1 x2 x3) (ix2 (0 : Fin 1) q) = val_main_v57 (F := Ideal) x0 x1 x2 x3 (ix1 q) := by
  rw [varOf_apply, ref_var, meanOf_apply, ref_mean]
  exact (var_identity (fun r : Fin 100000 => val_main_v47 (F := Ideal) x0 x1 x2 x3 (ix2 r q)) (fun r => hr _)).symm

/-- Hence the inverse deviations agree. -/
theorem rstd_eq (hr : ∀ i, IsReal (val_main_v47 (F := Ideal) x0 x1 x2 x3 i)) (q : Fin 64) :
    rstdOf (val_main_v47 (F := Ideal) x0 x1 x2 x3) (ix2 (0 : Fin 1) q) = val_main_v63 (F := Ideal) x0 x1 x2 x3 (ix1 q) := by
  rw [rstdOf_apply, ref_rstd, var_eq x0 x1 x2 x3 hr]

/-- The reference's normalised and clipped table is the specification's `actOf` of its first layer's table. -/
theorem stats (hr : ∀ i, IsReal (val_main_v47 (F := Ideal) x0 x1 x2 x3 i)) :
    val_main_v73 (F := Ideal) x0 x1 x2 x3 x4 x5 = actOf (val_main_v47 (F := Ideal) x0 x1 x2 x3) x4 x5 := by
  funext i
  obtain ⟨p, q, rfl⟩ : ∃ (p : Fin 100000) (q : Fin 64), i = ix2 p q := ⟨i 0, i 1, eq_ix2 i⟩
  rw [ref_out, actOf_apply, rowOf_apply, rowOf_apply, mean_eq, rstd_eq x0 x1 x2 x3 hr]

end Meet

end Cert.ReferenceIdeal.RefStats

end
-- ==== Proof.HReal.lean ====
/-
  The first layer's table is real when the float arguments are. A weight product of real tables is a finite sum
  of products of reals; a node's degree is one plus a count, a real that is at least one, so its inverse square
  root is a real; an edge coefficient is a product of two such; the aggregate adds finitely many products of
  gathered (hence real) entries to zero; and the combine adds and multiplies reals.
-/
import proofs.«129052_j67044439491163_1_alg».proof.Proof.SpecChain
import proofs.«129052_j67044439491163_1_alg».proof.Proof.Math
import Idealize.ShloMosaic.Lib.ValueIdx
import Idealize.ShloMosaic.Lib.ValueLayout
import Idealize.ShloMosaic.Lib.Pipeline.Value

set_option maxRecDepth 16384

noncomputable section

namespace Cert.Spec

open Idealize.ShloMosaic Idealize.ShloMosaic.ValueIdx Cert.KernelIdeal Cert.KernelIdeal.Gen Cert.Math

namespace HReal

/-! Each array operation the chains use returns, at every index, either one entry of an operand or a finite
    sum or product of such entries; so it keeps an all-real operand all-real. The lemmas hold at any shape. -/

variable {s t u si : Shape} {w : Nat}

/-- A gather picks operand entries. -/
theorem gather (d : GatherDims s si t) (x : FVec Ideal s .f32) (idx : IVec si w) (hx : ∀ i, IsReal (x i)) :
    ∀ j, IsReal (Host.gather d x idx j) := fun j => hx _

/-- A broadcast picks operand entries. -/
theorem bcast (dims : Fin s.rank → Fin t.rank) (h : s.BroadcastsInDim t dims) (x : FVec Ideal s .f32)
    (hx : ∀ i, IsReal (x i)) : ∀ j, IsReal (broadcastInDim t dims h x j) := fun j => hx _

/-- A reshape picks operand entries. -/
theorem cast (x : FVec Ideal s .f32) (h : s.ShapeCasts t) (hx : ∀ i, IsReal (x i)) :
    ∀ j, IsReal (shapeCast t x h j) := fun j => hx _

/-- A constant array whose word denotes a real. -/
theorem const (b : BitVec 32) (hb : IsReal (Ideal.ofBits .f32 b)) :
    ∀ j, IsReal (constant (F := Ideal) s .f32 b j) := fun _ => hb

/-- The entrywise product. -/
theorem mul (x y : FVec Ideal s .f32) (hx : ∀ i, IsReal (x i)) (hy : ∀ i, IsReal (y i)) :
    ∀ i, IsReal (mulf x y i) := fun i => IsReal.mul (hx i) (hy i)

/-- The entrywise sum. -/
theorem add (x y : FVec Ideal s .f32) (hx : ∀ i, IsReal (x i)) (hy : ∀ i, IsReal (y i)) :
    ∀ i, IsReal (addf x y i) := fun i => IsReal.add (hx i) (hy i)

/-- The accumulating scatter: an operand entry plus a finite sum of update entries. -/
theorem scatter (d : ScatterDims s si u) (x : FVec Ideal s .f32) (idx : IVec si w) (upd : FVec Ideal u .f32)
    (hx : ∀ i, IsReal (x i)) (hu : ∀ j, IsReal (upd j)) : ∀ i, IsReal (Host.scatterAdd d x idx upd i) := by
  intro i
  show IsReal (Ideal.hostScatterAdd d x idx upd i)
  unfold Ideal.hostScatterAdd
  exact IsReal.add (hx i) (IsReal.sum _ _ (fun j _ => hu j))

/-- The word for zero denotes a real. -/
theorem zeroWord : IsReal (Ideal.ofBits .f32 0x00000000#32) := by rw [ofBits_zero]; exact IsReal.zero

/-- One plus a count is a positive real: the word for one, added at every index to the scatter of ones into zeros
    (an entry of which is zero plus a finite sum of ones), is a real greater than zero. -/
theorem degree_pos (d : ScatterDims s si u) (idx : IVec si w) (bs : S_.BroadcastsInDim s (![] : Fin 0 → Fin s.rank))
    (bu : S_.BroadcastsInDim u (![] : Fin 0 → Fin u.rank)) (i : s.Idx) :
    ∃ r : ℝ, 0 < r ∧
      addf (broadcastInDim s ![] bs (constant (F := Ideal) S_ .f32 0x3F800000#32))
        (Host.scatterAdd d (broadcastInDim s ![] bs (constant (F := Ideal) S_ .f32 0x00000000#32)) idx
          (broadcastInDim u ![] bu (constant (F := Ideal) S_ .f32 0x3F800000#32))) i = (r : EReal) := by
  show ∃ r : ℝ, 0 < r ∧ Ideal.ofBits .f32 0x3F800000#32
    + Ideal.hostScatterAdd d (fun _ => Ideal.ofBits .f32 0x00000000#32) idx (fun _ => Ideal.ofBits .f32 0x3F800000#32) i
      = (r : EReal)
  unfold Ideal.hostScatterAdd
  rw [ofBits_one, ofBits_zero, zero_add, coe_sum, ← EReal.coe_add]
  exact ⟨_, add_pos_of_pos_of_nonneg one_pos (Finset.sum_nonneg (fun _ _ => zero_le_one)), rfl⟩

/-- The host's inverse square root of an array, at an index, is the inverse square root of the entry. -/
theorem rsqrt_apply (v : FVec Ideal s .f32) (i : s.Idx) : Host.rsqrt v i = Ideal.rsqrt (v i) := rfl

end HReal

/-- Every inverse square-root degree is a real. -/
theorem disOf_real (ei : IVec S2x1600000 32) : ∀ i, IsReal (disOf ei i) := by
  intro i
  obtain ⟨r, hr, e⟩ := HReal.degree_pos scatter_S100000_S1600000x1_S1600000_n_0_0_1 (col (dstOf ei))
    bcast_S_S100000 bcast_S_S1600000 i
  -- the entry is the inverse square root of the degree at `i`, a positive real
  unfold disOf
  rw [HReal.rsqrt_apply, e]
  exact IsReal.rsqrt_of_pos hr

/-- The inverse degree column is real. -/
theorem d2Of_real (ei : IVec S2x1600000 32) : ∀ i, IsReal (d2Of ei i) :=
  HReal.cast _ _ (HReal.mul _ _ (disOf_real ei) (disOf_real ei))

/-- Every edge coefficient is real. -/
theorem coefOf_real (ei : IVec S2x1600000 32) : ∀ i, IsReal (coefOf ei i) :=
  HReal.mul _ _ (HReal.gather _ _ _ (disOf_real ei)) (HReal.gather _ _ _ (disOf_real ei))

/-- A real table times a real weight is real. -/
theorem mm_real (X : FVec Ideal S100000x64 .f32) (W : FVec Ideal S64x64 .f32) (hX : ∀ i, IsReal (X i))
    (hW : ∀ i, IsReal (W i)) : ∀ i, IsReal (mm X W i) :=
  fun i => IsReal.sum _ _ (fun k _ => IsReal.mul (hX _) (hW _))

/-- The aggregate of a real table is real. -/
theorem aggOf_real (ei : IVec S2x1600000 32) (hp : FVec Ideal S100000x64 .f32) (hhp : ∀ i, IsReal (hp i)) :
    ∀ i, IsReal (aggOf ei hp i) :=
  HReal.scatter _ _ _ _ (HReal.bcast _ _ _ (HReal.const _ HReal.zeroWord))
    (HReal.mul _ _ (HReal.gather _ _ _ hhp) (HReal.bcast _ _ _ (HReal.bcast _ _ _ (coefOf_real ei))))

/-- The combine of real operands is real. -/
theorem comb_real (hp ag : FVec Ideal S100000x64 .f32) (d2 : FVec Ideal S100000x1 .f32) (b : FVec Ideal S1x64 .f32)
    (hhp : ∀ i, IsReal (hp i)) (hag : ∀ i, IsReal (ag i)) (hd2 : ∀ i, IsReal (d2 i)) (hb : ∀ i, IsReal (b i)) :
    ∀ i, IsReal (comb hp ag d2 b i) :=
  fun i => IsReal.add (IsReal.add (hag i) (IsReal.mul (hhp i) (hd2 _))) (hb _)

/-- The first layer's table is real when the table, the weight and the bias are. -/
theorem hOf_real (x : FVec Ideal S100000x64 .f32) (ei : IVec S2x1600000 32) (W1 : FVec Ideal S64x64 .f32) (b1 : FVec Ideal S64 .f32)
    (hx : ∀ i, IsReal (x i)) (hW : ∀ i, IsReal (W1 i)) (hb : ∀ i, IsReal (b1 i)) : ∀ i, IsReal (hOf x ei W1 b1 i) :=
  comb_real _ _ _ _ (mm_real x W1 hx hW) (aggOf_real ei _ (mm_real x W1 hx hW)) (d2Of_real ei) (HReal.cast _ _ hb)

end Cert.Spec

end
-- ==== Proof.PreReal.lean ====
/-
  From the precondition to the data: when `finite_inputs` of the argument arrays is all ones, every entry of every
  float argument is a real number. The predicate is a conjunction, one conjunct per float argument, each the
  all-reduction over the array of `|x| < +infinity` entry by entry; an extended real whose absolute value is below
  +infinity is neither infinity.
-/
import proofs.«129052_j67044439491163_1_alg».proof.Proof.Gen.Pre_finite_inputs
import proofs.«129052_j67044439491163_1_alg».proof.Proof.Math
import Idealize.ShloMosaic.Lib.ReduceAll

noncomputable section

namespace Cert.PreReal

open Idealize.ShloMosaic Cert.Pre_finite_inputs Cert.Pre_finite_inputs.Gen Cert.Math

/-- An extended real whose absolute value (the larger of it and its negation) lies strictly below the value of the
    float word for +infinity is a real number: the word denotes the top element, and the bound excludes both infinities. -/
theorem isReal_of_abs_lt (x : EReal)
    (h : Ideal.cmp .olt (max x (-x)) (Ideal.ofBits .f32 0x7F800000#32) = 1#1) : IsReal x := by
  have htop : Ideal.ofBits .f32 0x7F800000#32 = (⊤ : EReal) := by simp [Ideal.ofBits, Ideal.ieee]
  rw [htop] at h
  have hlt : max x (-x) < (⊤ : EReal) := by
    by_contra hn
    simp [Ideal.cmp, hn] at h
  induction x using EReal.rec with
  | bot => exact absurd hlt (by simp)
  | coe r => exact IsReal.coe r
  | top => exact absurd hlt (by simp)

/-- One conjunct of the predicate, for an array of any shape: when the all-reduction of `|x| < +infinity` taken entry
    by entry is one, every entry of `x` is a real number. -/
theorem all_real {s : Shape} {axes : List (Fin s.rank)} (bc : S_.BroadcastsInDim s (![] : Fin 0 → Fin s.rank))
    (rd : s.ReducesTo axes S_) (hu : 0 < S_.numel) (x : FVec Ideal s .f32) (init : IVec S_ 1) (j : S_.Idx)
    (e : Host.reduce IntOp.andi (cmpf .olt (Host.absf x) (broadcastInDim s ![] bc (constant S_ .f32 0x7F800000#32)))
      init rd hu j = 1#1) (i : s.Idx) : IsReal (x i) := by
  haveI : Subsingleton S_.Idx := ⟨fun a b => funext fun d => d.elim0⟩
  exact isReal_of_abs_lt (x i) (Host.reduce_andi_all _ init rd hu j e i)

/-- Under the precondition every float argument holds real numbers only. -/
theorem real_of_pre (a0 : FVec Ideal S100000x64 .f32) (a1 : IVec S2x1600000 32) (a2 : FVec Ideal S64x64 .f32)
    (a3 a4 a5 : FVec Ideal S64 .f32) (a6 : FVec Ideal S64x64 .f32) (a7 : FVec Ideal S64 .f32)
    (h : fn (F := Ideal) a0 a1 a2 a3 a4 a5 a6 a7 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) := by
  have h0 := congrFun h (fun d => d.elim0)
  dsimp only [fn, fn_part1] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨all_real _ _ _ a0 _ _ e0, all_real _ _ _ a2 _ _ e2, all_real _ _ _ a3 _ _ e3, all_real _ _ _ a4 _ _ e4,
    all_real _ _ _ a5 _ _ e5, all_real _ _ _ a6 _ _ e6, all_real _ _ _ a7 _ _ e7⟩

end Cert.PreReal

end
-- ==== Proof.lean ====
/-
  Two graph-convolution layers with a batch normalisation between them, as a Pallas program of five kernels among
  host gathers and scatters, against the plain jnp reference: equal results on the extended reals for finite inputs.

  Both programs compute, per layer, (aggregate of the neighbours' rows) + (own row / degree) + bias over the same
  weight product, with the same host chains for the degrees, the edge coefficients and the aggregate. The kernel
  forms the products and the combines block by block (25 blocks of 4000 rows), accumulates the column sums of the
  first layer's table and of its squares across the blocks, and takes the variance as mean of squares minus squared
  mean; the reference takes it as the mean of the squared deviations. Over real data the two variances are one
  number, and the first layer's table is real because the arguments are (the precondition) and every degree is at
  least one. Everything else is the same arithmetic entry by entry.

  The pieces: the kernel program's run with its result read (KRun), each region's array as one whole-array function
  (Reg0 … Reg4), the fold through @main read back to the specification's `kout` (KChainA, KChainB); the reference's
  stages as the specification's functions (RefLayer, RefStats); reals stay real (HReal, PreReal); the algebra (Math).
-/
import proofs.«129052_j67044439491163_1_alg».proof.Defs
import proofs.«129052_j67044439491163_1_alg».proof.Proof.Gen.Kernel
import proofs.«129052_j67044439491163_1_alg».proof.Proof.Gen.Kernel.Skeleton
import proofs.«129052_j67044439491163_1_alg».proof.Proof.Gen.Kernel.Launch
import proofs.«129052_j67044439491163_1_alg».proof.Proof.Gen.Kernel.Points
import proofs.«129052_j67044439491163_1_alg».proof.Proof.Gen.Kernel.Frame
import proofs.«129052_j67044439491163_1_alg».proof.Proof.Gen.KernelIdeal
import proofs.«129052_j67044439491163_1_alg».proof.Proof.Gen.KernelIdeal.Skeleton
import proofs.«129052_j67044439491163_1_alg».proof.Proof.Gen.KernelIdeal.Launch
import proofs.«129052_j67044439491163_1_alg».proof.Proof.Gen.KernelIdeal.Points
import proofs.«129052_j67044439491163_1_alg».proof.Proof.Gen.KernelIdeal.Frame
import proofs.«129052_j67044439491163_1_alg».proof.Proof.Gen.ReferenceIdeal
import proofs.«129052_j67044439491163_1_alg».proof.Proof.Gen.Pre_finite_inputs
import proofs.«129052_j67044439491163_1_alg».proof.Proof.Gen.ReferenceIdeal.Run
import proofs.«129052_j67044439491163_1_alg».proof.Proof.Gen.ReferenceIdeal.Read
import proofs.«129052_j67044439491163_1_alg».proof.Proof.KRun
import proofs.«129052_j67044439491163_1_alg».proof.Proof.KChainB
import proofs.«129052_j67044439491163_1_alg».proof.Proof.RefLayer
import proofs.«129052_j67044439491163_1_alg».proof.Proof.RefStats
import proofs.«129052_j67044439491163_1_alg».proof.Proof.HReal
import proofs.«129052_j67044439491163_1_alg».proof.Proof.PreReal
import Idealize.ShloMosaic.Adequacy
import Idealize.ShloMosaic.Init

noncomputable section

namespace Cert.Proof

open Idealize.ShloMosaic Idealize.ShloMosaic.TcCoe Idealize.SL.Sem

/-- The reference's result, as a function of arguments that satisfy the precondition, is the specification's. -/
theorem reference_is_spec (x0 : FVec Ideal Cert.KernelIdeal.S100000x64 .f32) (x1 : IVec Cert.KernelIdeal.S2x1600000 32)
    (x2 : FVec Ideal Cert.KernelIdeal.S64x64 .f32) (x3 x4 x5 : FVec Ideal Cert.KernelIdeal.S64 .f32)
    (x6 : FVec Ideal Cert.KernelIdeal.S64x64 .f32) (x7 : FVec Ideal Cert.KernelIdeal.S64 .f32)
    (hpre : Cert.Pre_finite_inputs.fn (F := Ideal) x0 x1 x2 x3 x4 x5 x6 x7 = fun _ => 1#1) :
    Cert.ReferenceIdeal.Read.val_main_v110 (F := Ideal) x0 x1 x2 x3 x4 x5 x6 x7 = Cert.Spec.kout x0 x1 x2 x3 x4 x5 x6 x7 := by
  obtain ⟨h0, h2, h3, -, -, -, -⟩ := Cert.PreReal.real_of_pre x0 x1 x2 x3 x4 x5 x6 x7 hpre
  have hr : ∀ i, Cert.Math.IsReal (Cert.ReferenceIdeal.Read.val_main_v47 (F := Ideal) x0 x1 x2 x3 i) := by
    rw [Cert.ReferenceIdeal.RefLayer.layer1]
    exact Cert.Spec.hOf_real x0 x1 x2 x3 h0 h2 h3
  rw [Cert.ReferenceIdeal.RefLayer.layer2, Cert.ReferenceIdeal.RefStats.stats x0 x1 x2 x3 x4 x5 hr,
    Cert.ReferenceIdeal.RefLayer.layer1]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's function of the (agreeing) arguments in their result arrays. -/
theorem algebraic : Cert.algebraic_KernelIdeal_ReferenceIdeal := by
  intro m ρ m' ρ' hpre hagree
  refine ⟨fun c => Cert.Spec.kout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KChainB.out_eq m ρ c), (h c).2⟩)
      (Cert.KernelIdeal.KRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v110_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact reference_is_spec _ _ _ _ _ _ _ _ (hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
